-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128 : Shape := ⟨2, ![8, 128]⟩
abbrev S100000x128 : Shape := ⟨2, ![100000, 128]⟩
abbrev S100000 : Shape := ⟨1, ![100000]⟩
abbrev S_ : Shape := ⟨0, ![]⟩

class Facts : Prop where
  bcast_S_S8x128 : S_.BroadcastsInDim S8x128 (![] : Fin 0 → Fin S8x128.rank)
  reducesTo_S8x128_S_d0_1 : S8x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S100000 : S_.BroadcastsInDim S100000 (![] : Fin 0 → Fin S100000.rank)
  reducesTo_S100000_S_d0 : S100000.ReducesTo [0] S_

variable [Facts]

def fn {F : FTy → Type} [FloatOps F] (main_arg0 : FVec F S8x128 .f32) (main_arg1 : FVec F S100000x128 .f32) (main_arg2 : FVec F S100000 .f32) : IVec S_ 1 :=
  let main_v0 : FVec F S8x128 .f32 := Host.absf main_arg0
  let main_cst : FVec F S_ .f32 := constant S_ .f32 0x7F800000#32
  let main_v1 : FVec F S8x128 .f32 := broadcastInDim S8x128 ![] bcast_S_S8x128 main_cst
  let main_v2 : IVec S8x128 1 := cmpf .olt main_v0 main_v1
  let main_c : IVec S_ 1 := constantI S_ 1 1#1
  let main_v3 : IVec S_ 1 := (fun x v => Host.reduce IntOp.andi x v reducesTo_S8x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000 .f32 := Host.absf main_arg2
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  main_v13
-- ==== Kernel.lean ====
abbrev S8x128 : Shape := ⟨2, ![8, 128]⟩
abbrev S100000x128 : Shape := ⟨2, ![100000, 128]⟩
abbrev S100000 : Shape := ⟨1, ![100000]⟩
abbrev S1x100000 : Shape := ⟨2, ![1, 100000]⟩
abbrev S8x100000 : Shape := ⟨2, ![8, 100000]⟩
abbrev S10112x128 : Shape := ⟨2, ![10112, 128]⟩
abbrev S1x20224 : Shape := ⟨2, ![1, 20224]⟩
abbrev S8x20224 : Shape := ⟨2, ![8, 20224]⟩
abbrev S8x10112 : Shape := ⟨2, ![8, 10112]⟩
abbrev S1x10112 : Shape := ⟨2, ![1, 10112]⟩

abbrev nBuf : Space → Nat
  | .hbm => 5
  | .vmem => 9
  | .smem => 0
  | _ => 0

abbrev bufTy : (tb : Table) → Fin (tcTables nBuf tb) → BufTy
  | .hbm, ⟨0, _⟩ => ⟨S8x128, .f32⟩
  | .hbm, ⟨1, _⟩ => ⟨S100000x128, .f32⟩
  | .hbm, ⟨2, _⟩ => ⟨S100000, .f32⟩
  | .hbm, ⟨3, _⟩ => ⟨S1x100000, .f32⟩
  | .hbm, ⟨4, _⟩ => ⟨S8x100000, .f32⟩
  | .local _ .vmem, ⟨0, _⟩ => ⟨S8x128, .f32⟩
  | .local _ .vmem, ⟨1, _⟩ => ⟨S10112x128, .f32⟩
  | .local _ .vmem, ⟨2, _⟩ => ⟨S10112x128, .f32⟩
  | .local _ .vmem, ⟨3, _⟩ => ⟨S10112x128, .f32⟩
  | .local _ .vmem, ⟨4, _⟩ => ⟨S10112x128, .f32⟩
  | .local _ .vmem, ⟨5, _⟩ => ⟨S1x20224, .f32⟩
  | .local _ .vmem, ⟨6, _⟩ => ⟨S1x20224, .f32⟩
  | .local _ .vmem, ⟨7, _⟩ => ⟨S8x20224, .f32⟩
  | .local _ .vmem, ⟨8, _⟩ => ⟨S8x20224, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10112x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10112x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x20224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x20224 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S100000_S1x100000 : S100000.ShapeCasts S1x100000
  inb_S8x128_S8x128_0_0 : ∀ a, (![0, 0] : Fin 2 → Nat) a + S8x128.size a ≤ S8x128.size a
  h_S8x128 : 0 < S8x128.numel
  inb_S10112x128_S10112x128_0_0 : ∀ a, (![0, 0] : Fin 2 → Nat) a + S10112x128.size a ≤ S10112x128.size a
  h_S10112x128 : 0 < S10112x128.numel
  inb_S1x20224_S1x10112_0_0 : ∀ a, (![0, 0] : Fin 2 → Nat) a + S1x10112.size a ≤ S1x20224.size a
  h_S1x10112 : 0 < S1x10112.numel
  shapeCasts_S1x10112_S1x10112 : S1x10112.ShapeCasts S1x10112
  broadcasts_S1x10112_S8x10112 : S1x10112.Broadcasts S8x10112
  inb_S8x20224_S8x10112_0_0 : ∀ a, (![0, 0] : Fin 2 → Nat) a + S8x10112.size a ≤ S8x20224.size a
  h_S8x10112 : 0 < S8x10112.numel
  inb_S1x20224_S1x10112_0_10112 : ∀ a, (![0, 10112] : Fin 2 → Nat) a + S1x10112.size a ≤ S1x20224.size a
  inb_S8x20224_S8x10112_0_10112 : ∀ a, (![0, 10112] : Fin 2 → Nat) a + S8x10112.size a ≤ S8x20224.size a
  dot_S8x128_S10112x128_S8x10112_1_1_0_0_n_n_wf : DotDims.WF S8x128 S10112x128 S8x10112 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S8x128.size a
  hwx0_0 : ∀ i : grid0.Coords, EltTy.bits .f32 = 32 ∨ (Rect.block (s := S8x128) S8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S10112x128.size a < S100000x128.size a
  hwx0_1 : ∀ i : grid0.Coords, EltTy.bits .f32 = 32 ∨ (Rect.unit (s := S100000x128) (fun a => cc0_transform_1 i a * S10112x128.size a) (fun a => (Pipeline.Clip.of (cc0_transform_1 i a) (S10112x128.size a) (S100000x128.size a)).extent (S10112x128.size a)) fun a => Pipeline.Clip.inb (Pipeline.Clip.ok_of (hstart0_1 i a))).WholeWords (EltTy.packing .f32)
  hwxs0_1 : ∀ i : grid0.Coords, EltTy.bits .f32 = 32 ∨ (Rect.unit (s := S10112x128) (fun _ => 0) (fun a => (Pipeline.Clip.of (cc0_transform_1 i a) (S10112x128.size a) (S100000x128.size a)).extent (S10112x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S10112x128.size a < S100000x128.size a
  hwx0_2 : ∀ i : grid0.Coords, EltTy.bits .f32 = 32 ∨ (Rect.unit (s := S100000x128) (fun a => cc0_transform_2 i a * S10112x128.size a) (fun a => (Pipeline.Clip.of (cc0_transform_2 i a) (S10112x128.size a) (S100000x128.size a)).extent (S10112x128.size a)) fun a => Pipeline.Clip.inb (Pipeline.Clip.ok_of (hstart0_2 i a))).WholeWords (EltTy.packing .f32)
  hwxs0_2 : ∀ i : grid0.Coords, EltTy.bits .f32 = 32 ∨ (Rect.unit (s := S10112x128) (fun _ => 0) (fun a => (Pipeline.Clip.of (cc0_transform_2 i a) (S10112x128.size a) (S100000x128.size a)).extent (S10112x128.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x20224.size a < S1x100000.size a
  hwx0_3 : ∀ i : grid0.Coords, EltTy.bits .f32 = 32 ∨ (Rect.unit (s := S1x100000) (fun a => cc0_transform_3 i a * S1x20224.size a) (fun a => (Pipeline.Clip.of (cc0_transform_3 i a) (S1x20224.size a) (S1x100000.size a)).extent (S1x20224.size a)) fun a => Pipeline.Clip.inb (Pipeline.Clip.ok_of (hstart0_3 i a))).WholeWords (EltTy.packing .f32)
  hwxs0_3 : ∀ i : grid0.Coords, EltTy.bits .f32 = 32 ∨ (Rect.unit (s := S1x20224) (fun _ => 0) (fun a => (Pipeline.Clip.of (cc0_transform_3 i a) (S1x20224.size a) (S1x100000.size a)).extent (S1x20224.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S8x20224.size a < S8x100000.size a
  hwx0_4 : ∀ i : grid0.Coords, EltTy.bits .f32 = 32 ∨ (Rect.unit (s := S8x100000) (fun a => cc0_transform_4 i a * S8x20224.size a) (fun a => (Pipeline.Clip.of (cc0_transform_4 i a) (S8x20224.size a) (S8x100000.size a)).extent (S8x20224.size a)) fun a => Pipeline.Clip.inb (Pipeline.Clip.ok_of (hstart0_4 i a))).WholeWords (EltTy.packing .f32)
  hwxs0_4 : ∀ i : grid0.Coords, EltTy.bits .f32 = 32 ∨ (Rect.unit (s := S8x20224) (fun _ => 0) (fun a => (Pipeline.Clip.of (cc0_transform_4 i a) (S8x20224.size a) (S8x100000.size a)).extent (S8x20224.size a)) fun a => (Nat.zero_add _).trans_le (Pipeline.Clip.extent_le (Pipeline.Clip.ok_of (hstart0_4 i a)))).WholeWords (EltTy.packing .f32)

variable [Facts₀]

def dot_S8x128_S10112x128_S8x10112_1_1_0_0_n_n : DotDims S8x128 S10112x128 S8x10112 where
  lhsContracting := [1]
  rhsContracting := [1]
  lhsNonContracting := [0]
  rhsNonContracting := [0]
  lhsBatch := []
  rhsBatch := []
  wf := dot_S8x128_S10112x128_S8x10112_1_1_0_0_n_n_wf

abbrev win0_0 : Pipeline.Window sig grid0 :=
  Pipeline.Window.ofSpec (Memref.whole main_arg0) S8x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S10112x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg1) S10112x128.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_call0_v0) S1x20224.size cc0_transform_3 reads0_3 false false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v0) S8x20224.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x128 : Shape := ⟨2, ![8, 128]⟩
abbrev S100000x128 : Shape := ⟨2, ![100000, 128]⟩
abbrev S100000 : Shape := ⟨1, ![100000]⟩
abbrev S128x100000 : Shape := ⟨2, ![128, 100000]⟩
abbrev S8x100000 : Shape := ⟨2, ![8, 100000]⟩
abbrev S1x100000 : Shape := ⟨2, ![1, 100000]⟩

abbrev nBuf : Space → Nat
  | .hbm => 8
  | .vmem => 0
  | .smem => 0
  | _ => 0

abbrev bufTy : (tb : Table) → Fin (tcTables nBuf tb) → BufTy
  | .hbm, ⟨0, _⟩ => ⟨S8x128, .f32⟩
  | .hbm, ⟨1, _⟩ => ⟨S100000x128, .f32⟩
  | .hbm, ⟨2, _⟩ => ⟨S100000, .f32⟩
  | .hbm, ⟨3, _⟩ => ⟨S128x100000, .f32⟩
  | .hbm, ⟨4, _⟩ => ⟨S8x100000, .f32⟩
  | .hbm, ⟨5, _⟩ => ⟨S1x100000, .f32⟩
  | .hbm, ⟨6, _⟩ => ⟨S8x100000, .f32⟩
  | .hbm, ⟨7, _⟩ => ⟨S8x100000, .f32⟩
  | _, _ => ⟨S8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  transposes_S100000x128_S128x100000_1_0 : S100000x128.Transposes [1, 0] S128x100000
  bcast_S100000_S1x100000_1 : S100000.BroadcastsInDim S1x100000 (![1] : Fin 1 → Fin S1x100000.rank)
  bcast_S1x100000_S8x100000_0_1 : S1x100000.BroadcastsInDim S8x100000 (![0, 1] : Fin 2 → Fin S8x100000.rank)
  dot_S8x128_S128x100000_S8x100000_1_0_0_1_n_n_wf : DotDims.WF S8x128 S128x100000 S8x100000 [1] [0] [0] [1] [] []

variable [Facts₀]

def dot_S8x128_S128x100000_S8x100000_1_0_0_1_n_n : DotDims S8x128 S128x100000 S8x100000 where
  lhsContracting := [1]
  rhsContracting := [0]
  lhsNonContracting := [0]
  rhsNonContracting := [1]
  lhsBatch := []
  rhsBatch := []
  wf := dot_S8x128_S128x100000_S8x100000_1_0_0_1_n_n_wf

class Facts : Prop extends Facts₀ where

variable [Facts]
-- ==== Proof.K.Base.lean ====
/-
  The one kernel region of the program, seen from outside its body.

  The program reshapes the bias to a row (one host operation), then launches a pipeline of five points over five
  windows: the activations (8×128, one block, fetched once); TWO windows on the weight array (blocks of 10112 rows,
  at block indices 2t and 2t+1); the bias row (blocks of 20224 columns); and the result (8×20224 blocks of columns).
  The last point's blocks overhang the arrays (100000 is not a multiple of 10112), so those transfers are cut at the
  array's end and the staging tail holds words nothing names.

  This module fixes: the contents the region finds in each buffer (`V`: the launch contents, the bias row reshaped),
  each window's block at a point read off those contents (`iblk`), what the body leaves in the result's staging
  buffer as a function of what the four input buffers hold (`out4`: two stores, each a matrix product of the
  activations with one weight block plus the matching half of the bias row, broadcast over the eight rows), and the
  body's run on whole staging memrefs (`sound_kernel`).
-/
import proofs.«140681_g34102040330808_cont_9to1_1746_7_alg».proof.Proof.Gen.Kernel.Launch
import proofs.«140681_g34102040330808_cont_9to1_1746_7_alg».proof.Proof.Gen.Kernel.Skeleton
import proofs.«140681_g34102040330808_cont_9to1_1746_7_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation (the bias
    reshaped to a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes none of the three arguments: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it: the part of the block inside the
    array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole activations block; a whole weight block; the two halves of the bias row; the two halves of the
    result block. -/
abbrev rX : Rect S8x128 := Rect.unit (s := S8x128) ![0, 0] S8x128.size inb_S8x128_S8x128_0_0
abbrev rW : Rect S10112x128 := Rect.unit (s := S10112x128) ![0, 0] S10112x128.size inb_S10112x128_S10112x128_0_0
abbrev rB0 : Rect S1x20224 := Rect.unit (s := S1x20224) ![0, 0] S1x10112.size inb_S1x20224_S1x10112_0_0
abbrev rB1 : Rect S1x20224 := Rect.unit (s := S1x20224) ![0, 10112] S1x10112.size inb_S1x20224_S1x10112_0_10112
abbrev rO0 : Rect S8x20224 := Rect.unit (s := S8x20224) ![0, 0] S8x10112.size inb_S8x20224_S8x10112_0_0
abbrev rO1 : Rect S8x20224 := Rect.unit (s := S8x20224) ![0, 10112] S8x10112.size inb_S8x20224_S8x10112_0_10112

/-! ## What the body leaves in the result's staging buffer -/

/-- The result's staging buffer after the body, from what the four input buffers hold: its two stores as pieces,
    the later one first. Columns 0‥10111 hold the product with the first weight block plus the bias row's first half;
    columns 10112‥20223 the product with the second weight block plus the second half. -/
def out4 (x0 : Vec F S8x128 .f32) (x1 x2 : Vec F S10112x128 .f32) (x3 : Vec F S1x20224 .f32) : Vec F S8x20224 .f32 :=
  View.canon [⟨rO1, k0_pay2 (View.ld x0 rX) (View.ld x2 rW) (View.ld x3 rB1)⟩,
    ⟨rO0, k0_pay1 (View.ld x0 rX) (View.ld x1 rW) (View.ld x3 rB0)⟩]

/-- The two stores tile the buffer. -/
theorem cover4 (p1 p0 : Vec F S8x10112 .f32) (y : S8x20224.Idx) :
    ∃ pc ∈ ([⟨rO1, p1⟩, ⟨rO0, p0⟩] : List (View.Piece (Elt F) S8x20224 .f32)), y ∈ pc.1.set :=
  View.cover_of_tiled [⟨rO1, p1⟩, ⟨rO0, p0⟩] S8x10112.size (by rfl) y

/-! ## The body's run -/

set_option maxHeartbeats 1000000 in
/-- The body on whole staging memrefs, the four inputs' at read contents `x0 … x3` and the result's at anything,
    runs to the continuation holding the inputs' as they were and the result's at `out4` of them. -/
theorem sound_kernel (c : Dev nD) (E : Set ℕ) (i : grid0.Coords)
    (arg1 : Memref sig .tc .vmem S8x128 .f32) (harg1 : arg1.IsWhole)
    (arg2 : Memref sig .tc .vmem S10112x128 .f32) (harg2 : arg2.IsWhole)
    (arg3 : Memref sig .tc .vmem S10112x128 .f32) (harg3 : arg3.IsWhole)
    (arg4 : Memref sig .tc .vmem S1x20224 .f32) (harg4 : arg4.IsWhole)
    (arg5 : Memref sig .tc .vmem S8x20224 .f32) (harg5 : arg5.IsWhole)
    (x0 : Vec F S8x128 .f32) (x1 x2 : Vec F S10112x128 .f32) (x3 : Vec F S1x20224 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 x0 x1 x2 x3)) -∗ K ⟨⟩))
      ⊢ wp frame (wpE (defs₀ (F := F)) Variants.none c none) E (cc0__linear_block i arg1 harg1 arg2 harg2 arg3 harg3 arg4 harg4 arg5 harg5) K := by
  simp only [cc0__linear_block_eq_skeleton]; unfold cc0__linear_block_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _ _)

end Cert.Kernel.Hand

end
-- ==== Proof.K.Data.lean ====
/-
  The pipeline's proof data and the body obligation.

  Every input window's staging buffer holds, when the body runs, what a fetch at that point puts there: the block's
  part inside the array on the leading rows (or columns) the transfer moves, and words nothing names elsewhere. The
  body changes none of the four input buffers, and leaves in the result's buffer the two stores' values (`out4`).
  The weight array is read through two windows, each at half the full share.

  Two forms of the obligation are proved from one run of the body: one that says nothing of the result's buffer
  (enough for "the arguments end unchanged"), and one that names the result's buffer on the part the write-back
  moves, given that the two stores' values there do not depend on the unnamed words.
-/
import proofs.«140681_g34102040330808_cont_9to1_1746_7_alg».proof.Proof.K.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents after the body are left unnamed: the result's alone. -/
abbrev fgt4 : Fin cfg0.W → Bool := fun | 0 => false | 1 => false | 2 => false | 3 => false | 4 => true | ⟨_ + 5, h⟩ => absurd h (Nat.not_lt.2 (Nat.le_add_left _ _))

/-- The zero word, the filler of staging words nothing reads. -/
abbrev zf (S : Shape) : S.Idx → Elt F .f32 := fun _ => Scalar.ofBits .f32 0#32

/-- The proof data on core `c`, given what the result's staging buffer is said to hold after the body at each point
    (`o4`): the arrays as the region finds them; each input's buffer at its block (filled out with zeros where the
    cut transfer moves nothing); the class's invariant; the weight array's share split between its two windows;
    nothing owed. -/
def dat (o4 : Fin cfg0.N → S8x20224.Idx → Elt F .f32) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (zf S10112x128) (iblk m c 1 t)
    | ⟨2, _⟩ => (cfg0.win 2).fill (cfg0.grid.coords t) (zf S10112x128) (iblk m c 2 t)
    | ⟨3, _⟩ => (cfg0.win 3).fill (cfg0.grid.coords t) (zf S1x20224) (iblk m c 3 t)
    | ⟨4, _⟩ => o4 t
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

variable (o4 : Fin cfg0.N → S8x20224.Idx → Elt F .f32)

theorem A_eq (c : Dev nD) (w : Fin cfg0.W) : (dat m o4 c).A w = V m c (Pipeline.arrRef spec0 w) := by
  dsimp only [dat]

theorem after_0 (c : Dev nD) (t : Fin cfg0.N) : (dat m o4 c).after 0 t = iblk m c 0 t := by dsimp only [dat]
theorem after_1 (c : Dev nD) (t : Fin cfg0.N) :
    (dat m o4 c).after 1 t = (cfg0.win 1).fill (cfg0.grid.coords t) (zf S10112x128) (iblk m c 1 t) := by dsimp only [dat]
theorem after_2 (c : Dev nD) (t : Fin cfg0.N) :
    (dat m o4 c).after 2 t = (cfg0.win 2).fill (cfg0.grid.coords t) (zf S10112x128) (iblk m c 2 t) := by dsimp only [dat]
theorem after_3 (c : Dev nD) (t : Fin cfg0.N) :
    (dat m o4 c).after 3 t = (cfg0.win 3).fill (cfg0.grid.coords t) (zf S1x20224) (iblk m c 3 t) := by dsimp only [dat]
theorem after_4 (c : Dev nD) (t : Fin cfg0.N) : (dat m o4 c).after 4 t = o4 t := by dsimp only [dat]

/-- What the body finds: the activations' buffer at the (one, uncut) block, fetched at the first point and kept; -/
theorem before_0 (c : Dev nD) (t : Fin cfg0.N) (d) : (dat m o4 c).before 0 t d = iblk m c 0 t := by
  refine ((dat m o4 c).before_in_eq_fetched 0 rfl (fun _ => rfl) (fun _ _ _ => rfl) (fun t => ?_) t d).trans ?_
  · rw [after_0]; unfold Dat.blockOf iblk; rw [A_eq]; try rfl
  · unfold Dat.fetched Dat.blockOf iblk; rw [A_eq]; try rfl
/-- each weight window's and the bias row's at its block where the cut fetch fills it, `d` elsewhere. -/
theorem before_1 (c : Dev nD) (t : Fin cfg0.N) (d) :
    (dat m o4 c).before 1 t d = (cfg0.win 1).fill (cfg0.grid.coords t) d (iblk m c 1 t) := by
  -- the cut of a block is a function of its block index
  have hclip : ∀ t t' : Fin cfg0.N, (cfg0.win 1).index t = (cfg0.win 1).index t' →
      (cfg0.win 1).clip (cfg0.grid.coords t) = (cfg0.win 1).clip (cfg0.grid.coords t') := by
    intro t t' h
    funext a
    have ha := congrFun h a
    unfold Window.index at ha
    show Pipeline.Clip.of (cc0_transform_1 (cfg0.grid.coords t) a) _ _ = Pipeline.Clip.of (cc0_transform_1 (cfg0.grid.coords t') a) _ _
    rw [show cc0_transform_1 (cfg0.grid.coords t) a = cc0_transform_1 (cfg0.grid.coords t') a from ha]
  refine ((dat m o4 c).before_in_eq_fetched 1 rfl (fun _ => rfl) hclip (fun t => ?_) t d).trans ?_
  · rw [after_1, Window.cut_fill]; unfold Dat.blockOf iblk; rw [A_eq]
  · unfold Dat.fetched Dat.blockOf iblk; rw [A_eq]
theorem before_2 (c : Dev nD) (t : Fin cfg0.N) (d) :
    (dat m o4 c).before 2 t d = (cfg0.win 2).fill (cfg0.grid.coords t) d (iblk m c 2 t) := by
  -- the cut of a block is a function of its block index
  have hclip : ∀ t t' : Fin cfg0.N, (cfg0.win 2).index t = (cfg0.win 2).index t' →
      (cfg0.win 2).clip (cfg0.grid.coords t) = (cfg0.win 2).clip (cfg0.grid.coords t') := by
    intro t t' h
    funext a
    have ha := congrFun h a
    unfold Window.index at ha
    show Pipeline.Clip.of (cc0_transform_2 (cfg0.grid.coords t) a) _ _ = Pipeline.Clip.of (cc0_transform_2 (cfg0.grid.coords t') a) _ _
    rw [show cc0_transform_2 (cfg0.grid.coords t) a = cc0_transform_2 (cfg0.grid.coords t') a from ha]
  refine ((dat m o4 c).before_in_eq_fetched 2 rfl (fun _ => rfl) hclip (fun t => ?_) t d).trans ?_
  · rw [after_2, Window.cut_fill]; unfold Dat.blockOf iblk; rw [A_eq]
  · unfold Dat.fetched Dat.blockOf iblk; rw [A_eq]
theorem before_3 (c : Dev nD) (t : Fin cfg0.N) (d) :
    (dat m o4 c).before 3 t d = (cfg0.win 3).fill (cfg0.grid.coords t) d (iblk m c 3 t) := by
  -- the cut of a block is a function of its block index
  have hclip : ∀ t t' : Fin cfg0.N, (cfg0.win 3).index t = (cfg0.win 3).index t' →
      (cfg0.win 3).clip (cfg0.grid.coords t) = (cfg0.win 3).clip (cfg0.grid.coords t') := by
    intro t t' h
    funext a
    have ha := congrFun h a
    unfold Window.index at ha
    show Pipeline.Clip.of (cc0_transform_3 (cfg0.grid.coords t) a) _ _ = Pipeline.Clip.of (cc0_transform_3 (cfg0.grid.coords t') a) _ _
    rw [show cc0_transform_3 (cfg0.grid.coords t) a = cc0_transform_3 (cfg0.grid.coords t') a from ha]
  refine ((dat m o4 c).before_in_eq_fetched 3 rfl (fun _ => rfl) hclip (fun t => ?_) t d).trans ?_
  · rw [after_3, Window.cut_fill]; unfold Dat.blockOf iblk; rw [A_eq]
  · unfold Dat.fetched Dat.blockOf iblk; rw [A_eq]

/-- One run of the body at point `t`, for both obligations. The four input buffers arrive at what a fetch leaves there
    (the block where the transfer fills the buffer, some `d` elsewhere) and leave as they came, which on the moved part
    is the block again; the invariant and what the core owes pass through unread. The result's buffer arrives at
    anything (`P4`) and leaves at the two stores' values over what the inputs held, handed on as `R4`. -/
private theorem body_point (c : Dev nD) (t : Fin cfg0.N) (P4 R4 : sProp 𝕄)
    (hP : P4 ⊢ iprop(∃ X, owns (c : Thread nD τ) (st0_4 t) fullShare X))
    (hR : ∀ (d1 d2 : S10112x128.Idx → Elt F .f32) (d3 : S1x20224.Idx → Elt F .f32),
      owns (c : Thread nD τ) (st0_4 t) fullShare
          (out4 (iblk m c 0 t) ((cfg0.win 1).fill (cfg0.grid.coords t) d1 (iblk m c 1 t))
            ((cfg0.win 2).fill (cfg0.grid.coords t) d2 (iblk m c 2 t)) ((cfg0.win 3).fill (cfg0.grid.coords t) d3 (iblk m c 3 t)))
        ⊢ R4) :
    iprop((dat m o4 c).Φ t.castSucc ∗ (dat m o4 c).owesAt () t.castSucc
        ∗ (∃ d, owns (c : Thread nD τ) (st0_0 t) fullShare ((dat m o4 c).before 0 t d))
        ∗ (∃ d, owns (c : Thread nD τ) (st0_1 t) fullShare ((dat m o4 c).before 1 t d))
        ∗ (∃ d, owns (c : Thread nD τ) (st0_2 t) fullShare ((dat m o4 c).before 2 t d))
        ∗ (∃ d, owns (c : Thread nD τ) (st0_3 t) fullShare ((dat m o4 c).before 3 t d))
        ∗ P4)
      ⊢ wp frame (wpE (defs₀ (F := F)) Variants.none c none) Set.univ (bodyAt0 t) fun _ =>
          iprop((dat m o4 c).Φ t.succ ∗ (dat m o4 c).owesAt () t.succ
            ∗ owns (c : Thread nD τ) (st0_0 t) fullShare ((dat m o4 c).after 0 t)
            ∗ (∃ d, owns (c : Thread nD τ) (st0_1 t) fullShare
                ((cfg0.win 1).fill (cfg0.grid.coords t) d ((cfg0.win 1).cut (cfg0.grid.coords t) ((dat m o4 c).after 1 t))))
            ∗ (∃ d, owns (c : Thread nD τ) (st0_2 t) fullShare
                ((cfg0.win 2).fill (cfg0.grid.coords t) d ((cfg0.win 2).cut (cfg0.grid.coords t) ((dat m o4 c).after 2 t))))
            ∗ (∃ d, owns (c : Thread nD τ) (st0_3 t) fullShare
                ((cfg0.win 3).fill (cfg0.grid.coords t) d ((cfg0.win 3).cut (cfg0.grid.coords t) ((dat m o4 c).after 3 t))))
            ∗ R4) := by
  -- the invariant and the tallies are the same at both positions; on the moved part a filled block is the block
  rw [show (dat m o4 c).Φ t.succ = (dat m o4 c).Φ t.castSucc from rfl,
    show (dat m o4 c).owesAt () t.succ = (dat m o4 c).owesAt () t.castSucc from rfl,
    after_0, after_1, after_2, after_3, Window.cut_fill, Window.cut_fill, Window.cut_fill]
  iintro ⟨HΦ, Ho, ⟨%d0, H0⟩, ⟨%d1, H1⟩, ⟨%d2, H2⟩, ⟨%d3, H3⟩, H4⟩
  rw [before_0 m o4 c t d0, before_1 m o4 c t d1, before_2 m o4 c t d2, before_3 m o4 c t d3]
  iapply (sound_kernel c Set.univ (grid0.coords t) _ _ _ _ _ _ _ _ _ _ (iblk m c 0 t)
    ((cfg0.win 1).fill (cfg0.grid.coords t) d1 (iblk m c 1 t)) ((cfg0.win 2).fill (cfg0.grid.coords t) d2 (iblk m c 2 t))
    ((cfg0.win 3).fill (cfg0.grid.coords t) d3 (iblk m c 3 t)) _)
  isplitl [H0]; · iexact H0
  isplitl [H1]; · iexact H1
  isplitl [H2]; · iexact H2
  isplitl [H3]; · iexact H3
  isplitl [H4]; · iapply hP; iexact H4
  iintro ⟨H0, H1, H2, H3, H4⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  iapply (hR d1 d2 d3); iexact H4

/-- The body obligation that says nothing of the result's buffer. -/
theorem obligation_forget (c : Dev nD) :
    BodyObligationLoose (dat m o4 c) (defs₀ (F := F)) Variants.none () Set.univ fgt4 := fun t => by
  rw [bigSep_W0, bigSep_W0]
  simp only
  exact body_point m o4 c t _ _ .rfl fun _ _ _ => by iintro H; iexists _; iexact H

/-- The body obligation that names the result's buffer on the part the write-back moves: given that there the two
    stores' values are `o4`'s whatever the unnamed staging words `d1 d2 d3` are. -/
theorem obligation_exact (c : Dev nD)
    (h : ∀ (t : Fin cfg0.N) (d1 d2 : S10112x128.Idx → Elt F .f32) (d3 : S1x20224.Idx → Elt F .f32),
      (cfg0.win 4).cut (cfg0.grid.coords t)
          (out4 (iblk m c 0 t) ((cfg0.win 1).fill (cfg0.grid.coords t) d1 (iblk m c 1 t))
            ((cfg0.win 2).fill (cfg0.grid.coords t) d2 (iblk m c 2 t)) ((cfg0.win 3).fill (cfg0.grid.coords t) d3 (iblk m c 3 t)))
        = (cfg0.win 4).cut (cfg0.grid.coords t) (o4 t)) :
    BodyObligationLoose (dat m o4 c) (defs₀ (F := F)) Variants.none () Set.univ := fun t => by
  rw [bigSep_W0, bigSep_W0]
  simp only
  refine body_point m o4 c t _ _ (by iintro ⟨%d, H⟩; iexists _; iexact H) fun d1 d2 d3 => ?_
  -- the unnamed part is the stores' own: two contents that agree on the moved part fill alike
  iintro H
  iexists (out4 (iblk m c 0 t) ((cfg0.win 1).fill (cfg0.grid.coords t) d1 (iblk m c 1 t))
    ((cfg0.win 2).fill (cfg0.grid.coords t) d2 (iblk m c 2 t)) ((cfg0.win 3).fill (cfg0.grid.coords t) d3 (iblk m c 3 t)))
  rw [after_4, (cfg0.win 4).fill_congr_cut (cfg0.grid.coords t) (h t d1 d2 d3)]
  iexact H

end Cert.Kernel.Hand

end
-- ==== Proof.K.Split.lean ====
/-
  How the launch's buffers make the pipeline's arrays when two windows read one array.

  The windows' arrays are four distinct buffers — the activations, the weights, the bias row, the result — but five
  windows. The launch hands each buffer whole; the weight array's full share is halved, one half to each of the
  two windows that read it, and the other three buffers go to their one window whole.
-/
import proofs.«140681_g34102040330808_cont_9to1_1746_7_alg».proof.Proof.K.Data
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (o4 : Fin cfg0.N → S8x20224.Idx → Elt F .f32)

/-- The windows' arrays are four buffers. -/
private theorem arrImage : Finset.univ.image (Pipeline.arrRef spec0) = [main_arg0, main_arg1, main_call0_v0, main_v0].toFinset := by decide

/-- The four buffers one by one. -/
private theorem arrBufs_eq (c : Dev nD) : (Pipeline.arrBufs spec0 c (V m c) : sProp 𝕄)
    = iprop((((c : Thread nD τ).loc main_arg0) ↦{fullShare} V m c main_arg0) ∗ (((c : Thread nD τ).loc main_arg1) ↦{fullShare} V m c main_arg1)
        ∗ (((c : Thread nD τ).loc main_call0_v0) ↦{fullShare} V m c main_call0_v0) ∗ (((c : Thread nD τ).loc main_v0) ↦{fullShare} V m c main_v0)) := by
  unfold Pipeline.arrBufs
  rw [bigSep_eq_bigSepL_of_eq _ arrImage (by decide)]
  rfl

/-- The shares: an input window's is the proof data's own, the result's the full share. -/
private theorem share_0 (c : Dev nD) : (dat m o4 c).share 0 = fullShare := by
  unfold Dat.share; rfl
private theorem share_1 (c : Dev nD) : (dat m o4 c).share 1 = fullShare.left := by
  unfold Dat.share; rfl
private theorem share_2 (c : Dev nD) : (dat m o4 c).share 2 = fullShare.right := by
  unfold Dat.share; rfl
private theorem share_3 (c : Dev nD) : (dat m o4 c).share 3 = fullShare := by
  unfold Dat.share; rfl
private theorem share_4 (c : Dev nD) : (dat m o4 c).share 4 = fullShare := by
  unfold Dat.share; rfl

/-- The distinct buffers behind the windows' arrays, each whole at the region-entry contents, are the proof data's
    arrays at entry. -/
theorem hsplit (c : Dev nD) :
    (Pipeline.arrBufs spec0 c (V m c) : sProp 𝕄) ⊢ (dat m o4 c).arrays (dat m o4 c).A := by
  rw [arrBufs_eq]
  unfold Dat.arrays
  rw [bigSep_W0]
  rw [share_0, share_1, share_2, share_3, share_4]
  simp only [A_eq, View.set_whole]
  iintro ⟨H0, H1, H3, H4⟩
  ihave H1 := (pointsTo_share (PosShare.mem_left_op_right fullShare)).1 $$ H1
  icases H1 with ⟨H1a, H1b⟩
  isplitl [H0]; · iexact H0
  isplitl [H1a]; · iexact H1a
  isplitl [H1b]; · iexact H1b
  isplitl [H3]; · iexact H3
  iexact H4

end Cert.Kernel.Hand

end
-- ==== Proof.LibSharedFrame.lean ====
/-
  The frame run of a one-region TensorCore program whose pipeline is handed ONE array through several windows.

  Two input windows that stage blocks of the same array cannot each hold the array at the full share, so the
  arrays are not pairwise distinct and the launch cannot deal "every array whole" to the pipeline. What it can
  deal is the DISTINCT buffers behind the windows' arrays, each whole; how one buffer's full share is divided among
  the windows that read it is the certificate's to say (`hsplit`). Everything else is as for distinct arrays: the
  scoped rest and the generator register are the region invariant, the unscoped buffers that are no window's array
  bypass the region and are read back unchanged, and every window's array ends in the relation the proof data
  state (an input: its entry contents).

  Stated over relational proof data (what the body leaves constrained, not named), and for exact proof data read
  relationally.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section SharedFrame

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀) (p : P) (defs₀ : Defs nD τ sig Val Λ₀) (𝒱₀ : Variants)

local notation "cfg" => cfgs p
local notation "𝔻" => Pipeline.defs (fun q => Cfg.toPCfg (Val := Val) (cfgs q)) defs₀

/-- The frame run over relational proof data when windows may share an array: the layout is given by its fields
    (the staging cells distinct, the windows' arrays unscoped and their staging buffers scoped and distinct, no
    block empty, arrays and staging memrefs whole buffers), and `hsplit` says how the distinct buffers behind the
    arrays, each whole at the region-entry contents, make the proof data's arrays at entry. -/
theorem RDat.θ_run_frame_shared
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (rdat : (c : Dev nD) → RDat τ Val Unit ℕ (UR sig nD τ) ℕ (cfg) c)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, (rdat c).BodyObligation defs₀ 𝒱₀ () Set.univ)
    (howed : ∀ c t, (rdat c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (rdat c).arrays (rdat c).A)
    (hΦ : ∀ c t, (rdat c).Φ t = ΦA (cfg).spec c) :
    θ_run 𝔻 (onTc main) (s₀ m g) (RDat.FramePost (cfg) rdat V) := by
  classical
  exact RDat.θ_run_region_pf (fun q => (cfgs q).toPCfg (Val := Val)) (fun q => (cfgs q).toPCfg_adm)
    (RDat.familyOf (fun q => (cfgs q).toPCfg (Val := Val)) (fun q => (cfgs q).toPCfg_adm) p rdat) () hinj p hw
    (OwnSemFacts.none (cfg).spec) (PreFacts.none _) emb₁ defs₀ 𝒱₀ m g main
    (fun c => by rw [RDat.familyOf_self]; exact hbody c)
    hne harr hstage (fun c t => by rw [RDat.familyOf_self]; exact howed c t)
    (G := fun _ => iprop(emp))
    (u₀ := initOf (cells cfgs hinj) (launchToks cfgs hinj))
    (hu₀ := by
      iintro Hu; imodintro
      isplitl [Hu]; · iapply (show (ownU _ : sProp 𝕄) ⊢ BI.own (emb₁ (initOf (cells cfgs hinj) (launchToks cfgs hinj))) from .rfl); iexact Hu
      iapply (show (BI.emp : sProp 𝕄) ⊢ bigSep Finset.univ (fun _ : Dev nD => (BI.emp : sProp 𝕄)) from by rw [BI.bigSep_emp_const])
      iempintro)
    (V := V) (hmain := hmain)
    (hsplit := fun c => by rw [RDat.familyOf_self]; exact hsplit c)
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) Prefetch.none (cfg).spec c (V c))
    (hX := fun c => by
      iintro ⟨HU, -, -, -, Hp, -⟩; imodintro
      isplitl [Hp]; · iexists _; iexact Hp
      iexact HU)
    (hin := fun c => by
      rw [RDat.familyOf_self, hΦ]
      unfold ΦA; iintro ⟨Hp, -, Hr⟩
      isplitl [Hr] <;> iassumption)
    (hout := fun c => by
      rw [RDat.familyOf_self, hΦ, ownSems0_none]; unfold ΦA
      iintro ⟨Hr, Hp⟩
      isplitl [Hp]; · iexact Hp
      isplitr; · iempintro
      iexact Hr)
    (QY := fun c s => ∀ b ∈ restRefsP sig Prefetch.none (cfg).spec, s.mem ((c.tc : Thread nD τ).loc b) = V c b)
    (hY := fun c s' => by
      iintro ⟨-, HU, HSI⟩
      unfold unscopedRestP
      imodintro
      iapply (pointsTo_read_all (restRefsP sig Prefetch.none (cfg).spec) (fun b => (c.tc : Thread nD τ).loc b) (V c) s')
      isplitl [HU] <;> iassumption)
    (hQ := fun s h c => ⟨fun w => by simpa only [RDat.familyOf_self] using (h c).1 w,
      rest_of_restP Prefetch.none (cfg).spec Prefetch.Contents.none c (V c) s (fun k => k.elim0) (h c).2.1 (h c).2.2⟩)

/-- The same for exact proof data (the body obligation in its loose form, possibly forgetting some windows):
    the data read relationally with those windows forgotten. -/
theorem θ_run_frame_shared_forget
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (dat : (c : Dev nD) → Dat τ Val Unit ℕ (UR sig nD τ) ℕ (cfg) c) (fgt : Fin (cfg).W → Bool)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dat c) defs₀ 𝒱₀ () Set.univ fgt)
    (howed : ∀ c t, (dat c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dat c).arrays (dat c).A)
    (hΦ : ∀ c t, (dat c).Φ t = ΦA (cfg).spec c) :
    θ_run 𝔻 (onTc main) (s₀ m g) (RDat.FramePost (cfg) (fun c => (dat c).toRForget fgt) V) :=
  RDat.θ_run_frame_shared cfgs p defs₀ 𝒱₀ hinj hw hne harr hstage (fun c => (dat c).toRForget fgt) m g main
    (fun c => (hbody c).toRForget) howed V hmain hsplit hΦ

end SharedFrame

end Pipeline

end Idealize.ShloMosaic

end
-- ==== Proof.K.Frame.lean ====
/-
  The frame of the program: every weakly fair execution terminates without a fault and the three argument arrays end
  as they were launched.

  Nothing is said here of the result array: the proof data forget what the body leaves in the result's staging
  buffer, so the run holds at any float instance — in particular where a matrix product is an opaque function of its
  whole operands and the last point's product reads staging words nothing names. The activations and the weights are
  windows' arrays the pipeline only reads; the bias vector is no window's array (the pipeline reads its reshaped
  copy) and bypasses the region.
-/
import proofs.«140681_g34102040330808_cont_9to1_1746_7_alg».proof.Proof.K.Split
import proofs.«140681_g34102040330808_cont_9to1_1746_7_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, the result's staging contents forgotten: every window's array ends in the relation the proof data
    state (an input: as the region found it), every other unscoped buffer as the region found it. -/
theorem run_forget (o4 : Fin cfg0.N → S8x20224.Idx → Elt F .f32) :
    θ_run defs (onTc (τ := τ) (main (F := F))) (s₀ m ρ)
      (Pipeline.RDat.FramePost cfg0 (fun c => (dat m o4 c).toRForget fgt4) (V m)) :=
  Pipeline.θ_run_frame_shared_forget cfgs (0 : Fin 1) defs₀ Variants.none cellOf_inj winFacts₀0 block_pos0 arr_whole0 stage_whole0
    (fun c => dat m o4 c) fgt4 m ρ main (fun c => obligation_forget m o4 c) (fun _ _ => rfl) (V m)
    (hmain m Variants.none) (fun c => hsplit m o4 c) (fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(Pipeline.RDat.FramePost.arr_in h c (0 : Fin 5) rfl).trans ((A_eq m (fun _ => zf S8x20224) c 0).trans (V_main_arg0 m c)),
       (Pipeline.RDat.FramePost.arr_in h c (1 : Fin 5) rfl).trans ((A_eq m (fun _ => zf S8x20224) c 1).trans (V_main_arg1 m c)),
       ((h c).2 main_arg2 (Pipeline.mem_restRefs_of main_arg2 (by decide) (by decide))).trans (V_main_arg2 m c)⟩)
    (run_forget m ρ (fun _ => zf S8x20224))

end Cert.Kernel.Hand

end
-- ==== Proof.KI.Base.lean ====
/-
  The one kernel region of the program, seen from outside its body.

  The program reshapes the bias to a row (one host operation), then launches a pipeline of five points over five
  windows: the activations (8×128, one block, fetched once); TWO windows on the weight array (blocks of 10112 rows,
  at block indices 2t and 2t+1); the bias row (blocks of 20224 columns); and the result (8×20224 blocks of columns).
  The last point's blocks overhang the arrays (100000 is not a multiple of 10112), so those transfers are cut at the
  array's end and the staging tail holds words nothing names.

  This module fixes: the contents the region finds in each buffer (`V`: the launch contents, the bias row reshaped),
  each window's block at a point read off those contents (`iblk`), what the body leaves in the result's staging
  buffer as a function of what the four input buffers hold (`out4`: two stores, each a matrix product of the
  activations with one weight block plus the matching half of the bias row, broadcast over the eight rows), and the
  body's run on whole staging memrefs (`sound_kernel`).
-/
import proofs.«140681_g34102040330808_cont_9to1_1746_7_alg».proof.Proof.Gen.KernelIdeal.Launch
import proofs.«140681_g34102040330808_cont_9to1_1746_7_alg».proof.Proof.Gen.KernelIdeal.Skeleton
import proofs.«140681_g34102040330808_cont_9to1_1746_7_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the one host operation (the bias
    reshaped to a row). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- @main is the host operation, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The host operation writes none of the three arguments: the region finds them as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it: the part of the block inside the
    array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

/-- The whole activations block; a whole weight block; the two halves of the bias row; the two halves of the
    result block. -/
abbrev rX : Rect S8x128 := Rect.unit (s := S8x128) ![0, 0] S8x128.size inb_S8x128_S8x128_0_0
abbrev rW : Rect S10112x128 := Rect.unit (s := S10112x128) ![0, 0] S10112x128.size inb_S10112x128_S10112x128_0_0
abbrev rB0 : Rect S1x20224 := Rect.unit (s := S1x20224) ![0, 0] S1x10112.size inb_S1x20224_S1x10112_0_0
abbrev rB1 : Rect S1x20224 := Rect.unit (s := S1x20224) ![0, 10112] S1x10112.size inb_S1x20224_S1x10112_0_10112
abbrev rO0 : Rect S8x20224 := Rect.unit (s := S8x20224) ![0, 0] S8x10112.size inb_S8x20224_S8x10112_0_0
abbrev rO1 : Rect S8x20224 := Rect.unit (s := S8x20224) ![0, 10112] S8x10112.size inb_S8x20224_S8x10112_0_10112

/-! ## What the body leaves in the result's staging buffer -/

/-- The result's staging buffer after the body, from what the four input buffers hold: its two stores as pieces,
    the later one first. Columns 0‥10111 hold the product with the first weight block plus the bias row's first half;
    columns 10112‥20223 the product with the second weight block plus the second half. -/
def out4 (x0 : Vec F S8x128 .f32) (x1 x2 : Vec F S10112x128 .f32) (x3 : Vec F S1x20224 .f32) : Vec F S8x20224 .f32 :=
  View.canon [⟨rO1, k0_pay2 (View.ld x0 rX) (View.ld x2 rW) (View.ld x3 rB1)⟩,
    ⟨rO0, k0_pay1 (View.ld x0 rX) (View.ld x1 rW) (View.ld x3 rB0)⟩]

/-- The two stores tile the buffer. -/
theorem cover4 (p1 p0 : Vec F S8x10112 .f32) (y : S8x20224.Idx) :
    ∃ pc ∈ ([⟨rO1, p1⟩, ⟨rO0, p0⟩] : List (View.Piece (Elt F) S8x20224 .f32)), y ∈ pc.1.set :=
  View.cover_of_tiled [⟨rO1, p1⟩, ⟨rO0, p0⟩] S8x10112.size (by rfl) y

/-! ## The body's run -/

set_option maxHeartbeats 1000000 in
/-- The body on whole staging memrefs, the four inputs' at read contents `x0 … x3` and the result's at anything,
    runs to the continuation holding the inputs' as they were and the result's at `out4` of them. -/
theorem sound_kernel (c : Dev nD) (E : Set ℕ) (i : grid0.Coords)
    (arg1 : Memref sig .tc .vmem S8x128 .f32) (harg1 : arg1.IsWhole)
    (arg2 : Memref sig .tc .vmem S10112x128 .f32) (harg2 : arg2.IsWhole)
    (arg3 : Memref sig .tc .vmem S10112x128 .f32) (harg3 : arg3.IsWhole)
    (arg4 : Memref sig .tc .vmem S1x20224 .f32) (harg4 : arg4.IsWhole)
    (arg5 : Memref sig .tc .vmem S8x20224 .f32) (harg5 : arg5.IsWhole)
    (x0 : Vec F S8x128 .f32) (x1 x2 : Vec F S10112x128 .f32) (x3 : Vec F S1x20224 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out4 x0 x1 x2 x3)) -∗ K ⟨⟩))
      ⊢ wp frame (wpE (defs₀ (F := F)) Variants.none c none) E (cc0__linear_block i arg1 harg1 arg2 harg2 arg3 harg3 arg4 harg4 arg5 harg5) K := by
  simp only [cc0__linear_block_eq_skeleton]; unfold cc0__linear_block_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _ _)

end Cert.KernelIdeal.Hand

end
-- ==== Proof.KI.Data.lean ====
/-
  The pipeline's proof data and the body obligation.

  Every input window's staging buffer holds, when the body runs, what a fetch at that point puts there: the block's
  part inside the array on the leading rows (or columns) the transfer moves, and words nothing names elsewhere. The
  body changes none of the four input buffers, and leaves in the result's buffer the two stores' values (`out4`).
  The weight array is read through two windows, each at half the full share.

  Two forms of the obligation are proved from one run of the body: one that says nothing of the result's buffer
  (enough for "the arguments end unchanged"), and one that names the result's buffer on the part the write-back
  moves, given that the two stores' values there do not depend on the unnamed words.
-/
import proofs.«140681_g34102040330808_cont_9to1_1746_7_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows whose contents after the body are left unnamed: the result's alone. -/
abbrev fgt4 : Fin cfg0.W → Bool := fun | 0 => false | 1 => false | 2 => false | 3 => false | 4 => true | ⟨_ + 5, h⟩ => absurd h (Nat.not_lt.2 (Nat.le_add_left _ _))

/-- The zero word, the filler of staging words nothing reads. -/
abbrev zf (S : Shape) : S.Idx → Elt F .f32 := fun _ => Scalar.ofBits .f32 0#32

/-- The proof data on core `c`, given what the result's staging buffer is said to hold after the body at each point
    (`o4`): the arrays as the region finds them; each input's buffer at its block (filled out with zeros where the
    cut transfer moves nothing); the class's invariant; the weight array's share split between its two windows;
    nothing owed. -/
def dat (o4 : Fin cfg0.N → S8x20224.Idx → Elt F .f32) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (zf S10112x128) (iblk m c 1 t)
    | ⟨2, _⟩ => (cfg0.win 2).fill (cfg0.grid.coords t) (zf S10112x128) (iblk m c 2 t)
    | ⟨3, _⟩ => (cfg0.win 3).fill (cfg0.grid.coords t) (zf S1x20224) (iblk m c 3 t)
    | ⟨4, _⟩ => o4 t
  Φ _ := Pipeline.ΦA spec0 c
  q w := match w with
    | ⟨0, _⟩ => fullShare
    | ⟨1, _⟩ => fullShare.left
    | ⟨2, _⟩ => fullShare.right
    | ⟨3, _⟩ => fullShare
    | ⟨4, _⟩ => fullShare
  owed _ := 0

variable (o4 : Fin cfg0.N → S8x20224.Idx → Elt F .f32)

theorem A_eq (c : Dev nD) (w : Fin cfg0.W) : (dat m o4 c).A w = V m c (Pipeline.arrRef spec0 w) := by
  dsimp only [dat]

theorem after_0 (c : Dev nD) (t : Fin cfg0.N) : (dat m o4 c).after 0 t = iblk m c 0 t := by dsimp only [dat]
theorem after_1 (c : Dev nD) (t : Fin cfg0.N) :
    (dat m o4 c).after 1 t = (cfg0.win 1).fill (cfg0.grid.coords t) (zf S10112x128) (iblk m c 1 t) := by dsimp only [dat]
theorem after_2 (c : Dev nD) (t : Fin cfg0.N) :
    (dat m o4 c).after 2 t = (cfg0.win 2).fill (cfg0.grid.coords t) (zf S10112x128) (iblk m c 2 t) := by dsimp only [dat]
theorem after_3 (c : Dev nD) (t : Fin cfg0.N) :
    (dat m o4 c).after 3 t = (cfg0.win 3).fill (cfg0.grid.coords t) (zf S1x20224) (iblk m c 3 t) := by dsimp only [dat]
theorem after_4 (c : Dev nD) (t : Fin cfg0.N) : (dat m o4 c).after 4 t = o4 t := by dsimp only [dat]

/-- What the body finds: the activations' buffer at the (one, uncut) block, fetched at the first point and kept; -/
theorem before_0 (c : Dev nD) (t : Fin cfg0.N) (d) : (dat m o4 c).before 0 t d = iblk m c 0 t := by
  refine ((dat m o4 c).before_in_eq_fetched 0 rfl (fun _ => rfl) (fun _ _ _ => rfl) (fun t => ?_) t d).trans ?_
  · rw [after_0]; unfold Dat.blockOf iblk; rw [A_eq]; try rfl
  · unfold Dat.fetched Dat.blockOf iblk; rw [A_eq]; try rfl
/-- each weight window's and the bias row's at its block where the cut fetch fills it, `d` elsewhere. -/
theorem before_1 (c : Dev nD) (t : Fin cfg0.N) (d) :
    (dat m o4 c).before 1 t d = (cfg0.win 1).fill (cfg0.grid.coords t) d (iblk m c 1 t) := by
  -- the cut of a block is a function of its block index
  have hclip : ∀ t t' : Fin cfg0.N, (cfg0.win 1).index t = (cfg0.win 1).index t' →
      (cfg0.win 1).clip (cfg0.grid.coords t) = (cfg0.win 1).clip (cfg0.grid.coords t') := by
    intro t t' h
    funext a
    have ha := congrFun h a
    unfold Window.index at ha
    show Pipeline.Clip.of (cc0_transform_1 (cfg0.grid.coords t) a) _ _ = Pipeline.Clip.of (cc0_transform_1 (cfg0.grid.coords t') a) _ _
    rw [show cc0_transform_1 (cfg0.grid.coords t) a = cc0_transform_1 (cfg0.grid.coords t') a from ha]
  refine ((dat m o4 c).before_in_eq_fetched 1 rfl (fun _ => rfl) hclip (fun t => ?_) t d).trans ?_
  · rw [after_1, Window.cut_fill]; unfold Dat.blockOf iblk; rw [A_eq]
  · unfold Dat.fetched Dat.blockOf iblk; rw [A_eq]
theorem before_2 (c : Dev nD) (t : Fin cfg0.N) (d) :
    (dat m o4 c).before 2 t d = (cfg0.win 2).fill (cfg0.grid.coords t) d (iblk m c 2 t) := by
  -- the cut of a block is a function of its block index
  have hclip : ∀ t t' : Fin cfg0.N, (cfg0.win 2).index t = (cfg0.win 2).index t' →
      (cfg0.win 2).clip (cfg0.grid.coords t) = (cfg0.win 2).clip (cfg0.grid.coords t') := by
    intro t t' h
    funext a
    have ha := congrFun h a
    unfold Window.index at ha
    show Pipeline.Clip.of (cc0_transform_2 (cfg0.grid.coords t) a) _ _ = Pipeline.Clip.of (cc0_transform_2 (cfg0.grid.coords t') a) _ _
    rw [show cc0_transform_2 (cfg0.grid.coords t) a = cc0_transform_2 (cfg0.grid.coords t') a from ha]
  refine ((dat m o4 c).before_in_eq_fetched 2 rfl (fun _ => rfl) hclip (fun t => ?_) t d).trans ?_
  · rw [after_2, Window.cut_fill]; unfold Dat.blockOf iblk; rw [A_eq]
  · unfold Dat.fetched Dat.blockOf iblk; rw [A_eq]
theorem before_3 (c : Dev nD) (t : Fin cfg0.N) (d) :
    (dat m o4 c).before 3 t d = (cfg0.win 3).fill (cfg0.grid.coords t) d (iblk m c 3 t) := by
  -- the cut of a block is a function of its block index
  have hclip : ∀ t t' : Fin cfg0.N, (cfg0.win 3).index t = (cfg0.win 3).index t' →
      (cfg0.win 3).clip (cfg0.grid.coords t) = (cfg0.win 3).clip (cfg0.grid.coords t') := by
    intro t t' h
    funext a
    have ha := congrFun h a
    unfold Window.index at ha
    show Pipeline.Clip.of (cc0_transform_3 (cfg0.grid.coords t) a) _ _ = Pipeline.Clip.of (cc0_transform_3 (cfg0.grid.coords t') a) _ _
    rw [show cc0_transform_3 (cfg0.grid.coords t) a = cc0_transform_3 (cfg0.grid.coords t') a from ha]
  refine ((dat m o4 c).before_in_eq_fetched 3 rfl (fun _ => rfl) hclip (fun t => ?_) t d).trans ?_
  · rw [after_3, Window.cut_fill]; unfold Dat.blockOf iblk; rw [A_eq]
  · unfold Dat.fetched Dat.blockOf iblk; rw [A_eq]

/-- One run of the body at point `t`, for both obligations. The four input buffers arrive at what a fetch leaves there
    (the block where the transfer fills the buffer, some `d` elsewhere) and leave as they came, which on the moved part
    is the block again; the invariant and what the core owes pass through unread. The result's buffer arrives at
    anything (`P4`) and leaves at the two stores' values over what the inputs held, handed on as `R4`. -/
private theorem body_point (c : Dev nD) (t : Fin cfg0.N) (P4 R4 : sProp 𝕄)
    (hP : P4 ⊢ iprop(∃ X, owns (c : Thread nD τ) (st0_4 t) fullShare X))
    (hR : ∀ (d1 d2 : S10112x128.Idx → Elt F .f32) (d3 : S1x20224.Idx → Elt F .f32),
      owns (c : Thread nD τ) (st0_4 t) fullShare
          (out4 (iblk m c 0 t) ((cfg0.win 1).fill (cfg0.grid.coords t) d1 (iblk m c 1 t))
            ((cfg0.win 2).fill (cfg0.grid.coords t) d2 (iblk m c 2 t)) ((cfg0.win 3).fill (cfg0.grid.coords t) d3 (iblk m c 3 t)))
        ⊢ R4) :
    iprop((dat m o4 c).Φ t.castSucc ∗ (dat m o4 c).owesAt () t.castSucc
        ∗ (∃ d, owns (c : Thread nD τ) (st0_0 t) fullShare ((dat m o4 c).before 0 t d))
        ∗ (∃ d, owns (c : Thread nD τ) (st0_1 t) fullShare ((dat m o4 c).before 1 t d))
        ∗ (∃ d, owns (c : Thread nD τ) (st0_2 t) fullShare ((dat m o4 c).before 2 t d))
        ∗ (∃ d, owns (c : Thread nD τ) (st0_3 t) fullShare ((dat m o4 c).before 3 t d))
        ∗ P4)
      ⊢ wp frame (wpE (defs₀ (F := F)) Variants.none c none) Set.univ (bodyAt0 t) fun _ =>
          iprop((dat m o4 c).Φ t.succ ∗ (dat m o4 c).owesAt () t.succ
            ∗ owns (c : Thread nD τ) (st0_0 t) fullShare ((dat m o4 c).after 0 t)
            ∗ (∃ d, owns (c : Thread nD τ) (st0_1 t) fullShare
                ((cfg0.win 1).fill (cfg0.grid.coords t) d ((cfg0.win 1).cut (cfg0.grid.coords t) ((dat m o4 c).after 1 t))))
            ∗ (∃ d, owns (c : Thread nD τ) (st0_2 t) fullShare
                ((cfg0.win 2).fill (cfg0.grid.coords t) d ((cfg0.win 2).cut (cfg0.grid.coords t) ((dat m o4 c).after 2 t))))
            ∗ (∃ d, owns (c : Thread nD τ) (st0_3 t) fullShare
                ((cfg0.win 3).fill (cfg0.grid.coords t) d ((cfg0.win 3).cut (cfg0.grid.coords t) ((dat m o4 c).after 3 t))))
            ∗ R4) := by
  -- the invariant and the tallies are the same at both positions; on the moved part a filled block is the block
  rw [show (dat m o4 c).Φ t.succ = (dat m o4 c).Φ t.castSucc from rfl,
    show (dat m o4 c).owesAt () t.succ = (dat m o4 c).owesAt () t.castSucc from rfl,
    after_0, after_1, after_2, after_3, Window.cut_fill, Window.cut_fill, Window.cut_fill]
  iintro ⟨HΦ, Ho, ⟨%d0, H0⟩, ⟨%d1, H1⟩, ⟨%d2, H2⟩, ⟨%d3, H3⟩, H4⟩
  rw [before_0 m o4 c t d0, before_1 m o4 c t d1, before_2 m o4 c t d2, before_3 m o4 c t d3]
  iapply (sound_kernel c Set.univ (grid0.coords t) _ _ _ _ _ _ _ _ _ _ (iblk m c 0 t)
    ((cfg0.win 1).fill (cfg0.grid.coords t) d1 (iblk m c 1 t)) ((cfg0.win 2).fill (cfg0.grid.coords t) d2 (iblk m c 2 t))
    ((cfg0.win 3).fill (cfg0.grid.coords t) d3 (iblk m c 3 t)) _)
  isplitl [H0]; · iexact H0
  isplitl [H1]; · iexact H1
  isplitl [H2]; · iexact H2
  isplitl [H3]; · iexact H3
  isplitl [H4]; · iapply hP; iexact H4
  iintro ⟨H0, H1, H2, H3, H4⟩
  isplitl [HΦ]; · iexact HΦ
  isplitl [Ho]; · iexact Ho
  isplitl [H0]; · iexact H0
  isplitl [H1]; · iexists d1; iexact H1
  isplitl [H2]; · iexists d2; iexact H2
  isplitl [H3]; · iexists d3; iexact H3
  iapply (hR d1 d2 d3); iexact H4

/-- The body obligation that says nothing of the result's buffer. -/
theorem obligation_forget (c : Dev nD) :
    BodyObligationLoose (dat m o4 c) (defs₀ (F := F)) Variants.none () Set.univ fgt4 := fun t => by
  rw [bigSep_W0, bigSep_W0]
  simp only
  exact body_point m o4 c t _ _ .rfl fun _ _ _ => by iintro H; iexists _; iexact H

/-- The body obligation that names the result's buffer on the part the write-back moves: given that there the two
    stores' values are `o4`'s whatever the unnamed staging words `d1 d2 d3` are. -/
theorem obligation_exact (c : Dev nD)
    (h : ∀ (t : Fin cfg0.N) (d1 d2 : S10112x128.Idx → Elt F .f32) (d3 : S1x20224.Idx → Elt F .f32),
      (cfg0.win 4).cut (cfg0.grid.coords t)
          (out4 (iblk m c 0 t) ((cfg0.win 1).fill (cfg0.grid.coords t) d1 (iblk m c 1 t))
            ((cfg0.win 2).fill (cfg0.grid.coords t) d2 (iblk m c 2 t)) ((cfg0.win 3).fill (cfg0.grid.coords t) d3 (iblk m c 3 t)))
        = (cfg0.win 4).cut (cfg0.grid.coords t) (o4 t)) :
    BodyObligationLoose (dat m o4 c) (defs₀ (F := F)) Variants.none () Set.univ := fun t => by
  rw [bigSep_W0, bigSep_W0]
  simp only
  refine body_point m o4 c t _ _ (by iintro ⟨%d, H⟩; iexists _; iexact H) fun d1 d2 d3 => ?_
  -- the unnamed part is the stores' own: two contents that agree on the moved part fill alike
  iintro H
  iexists (out4 (iblk m c 0 t) ((cfg0.win 1).fill (cfg0.grid.coords t) d1 (iblk m c 1 t))
    ((cfg0.win 2).fill (cfg0.grid.coords t) d2 (iblk m c 2 t)) ((cfg0.win 3).fill (cfg0.grid.coords t) d3 (iblk m c 3 t)))
  rw [after_4, (cfg0.win 4).fill_congr_cut (cfg0.grid.coords t) (h t d1 d2 d3)]
  iexact H

end Cert.KernelIdeal.Hand

end
-- ==== Proof.KI.Split.lean ====
/-
  How the launch's buffers make the pipeline's arrays when two windows read one array.

  The windows' arrays are four distinct buffers — the activations, the weights, the bias row, the result — but five
  windows. The launch hands each buffer whole; the weight array's full share is halved, one half to each of the
  two windows that read it, and the other three buffers go to their one window whole.
-/
import proofs.«140681_g34102040330808_cont_9to1_1746_7_alg».proof.Proof.KI.Data
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (o4 : Fin cfg0.N → S8x20224.Idx → Elt F .f32)

/-- The windows' arrays are four buffers. -/
private theorem arrImage : Finset.univ.image (Pipeline.arrRef spec0) = [main_arg0, main_arg1, main_call0_v0, main_v0].toFinset := by decide

/-- The four buffers one by one. -/
private theorem arrBufs_eq (c : Dev nD) : (Pipeline.arrBufs spec0 c (V m c) : sProp 𝕄)
    = iprop((((c : Thread nD τ).loc main_arg0) ↦{fullShare} V m c main_arg0) ∗ (((c : Thread nD τ).loc main_arg1) ↦{fullShare} V m c main_arg1)
        ∗ (((c : Thread nD τ).loc main_call0_v0) ↦{fullShare} V m c main_call0_v0) ∗ (((c : Thread nD τ).loc main_v0) ↦{fullShare} V m c main_v0)) := by
  unfold Pipeline.arrBufs
  rw [bigSep_eq_bigSepL_of_eq _ arrImage (by decide)]
  rfl

/-- The shares: an input window's is the proof data's own, the result's the full share. -/
private theorem share_0 (c : Dev nD) : (dat m o4 c).share 0 = fullShare := by
  unfold Dat.share; rfl
private theorem share_1 (c : Dev nD) : (dat m o4 c).share 1 = fullShare.left := by
  unfold Dat.share; rfl
private theorem share_2 (c : Dev nD) : (dat m o4 c).share 2 = fullShare.right := by
  unfold Dat.share; rfl
private theorem share_3 (c : Dev nD) : (dat m o4 c).share 3 = fullShare := by
  unfold Dat.share; rfl
private theorem share_4 (c : Dev nD) : (dat m o4 c).share 4 = fullShare := by
  unfold Dat.share; rfl

/-- The distinct buffers behind the windows' arrays, each whole at the region-entry contents, are the proof data's
    arrays at entry. -/
theorem hsplit (c : Dev nD) :
    (Pipeline.arrBufs spec0 c (V m c) : sProp 𝕄) ⊢ (dat m o4 c).arrays (dat m o4 c).A := by
  rw [arrBufs_eq]
  unfold Dat.arrays
  rw [bigSep_W0]
  rw [share_0, share_1, share_2, share_3, share_4]
  simp only [A_eq, View.set_whole]
  iintro ⟨H0, H1, H3, H4⟩
  ihave H1 := (pointsTo_share (PosShare.mem_left_op_right fullShare)).1 $$ H1
  icases H1 with ⟨H1a, H1b⟩
  isplitl [H0]; · iexact H0
  isplitl [H1a]; · iexact H1a
  isplitl [H1b]; · iexact H1b
  isplitl [H3]; · iexact H3
  iexact H4

end Cert.KernelIdeal.Hand

end
-- ==== Proof.KI.Frame.lean ====
/-
  The frame of the program: every weakly fair execution terminates without a fault and the three argument arrays end
  as they were launched.

  Nothing is said here of the result array: the proof data forget what the body leaves in the result's staging
  buffer, so the run holds at any float instance — in particular where a matrix product is an opaque function of its
  whole operands and the last point's product reads staging words nothing names. The activations and the weights are
  windows' arrays the pipeline only reads; the bias vector is no window's array (the pipeline reads its reshaped
  copy) and bypasses the region.
-/
import proofs.«140681_g34102040330808_cont_9to1_1746_7_alg».proof.Proof.KI.Split
import proofs.«140681_g34102040330808_cont_9to1_1746_7_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, the result's staging contents forgotten: every window's array ends in the relation the proof data
    state (an input: as the region found it), every other unscoped buffer as the region found it. -/
theorem run_forget (o4 : Fin cfg0.N → S8x20224.Idx → Elt F .f32) :
    θ_run defs (onTc (τ := τ) (main (F := F))) (s₀ m ρ)
      (Pipeline.RDat.FramePost cfg0 (fun c => (dat m o4 c).toRForget fgt4) (V m)) :=
  Pipeline.θ_run_frame_shared_forget cfgs (0 : Fin 1) defs₀ Variants.none cellOf_inj winFacts₀0 block_pos0 arr_whole0 stage_whole0
    (fun c => dat m o4 c) fgt4 m ρ main (fun c => obligation_forget m o4 c) (fun _ _ => rfl) (V m)
    (hmain m Variants.none) (fun c => hsplit m o4 c) (fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(Pipeline.RDat.FramePost.arr_in h c (0 : Fin 5) rfl).trans ((A_eq m (fun _ => zf S8x20224) c 0).trans (V_main_arg0 m c)),
       (Pipeline.RDat.FramePost.arr_in h c (1 : Fin 5) rfl).trans ((A_eq m (fun _ => zf S8x20224) c 1).trans (V_main_arg1 m c)),
       ((h c).2 main_arg2 (Pipeline.mem_restRefs_of main_arg2 (by decide) (by decide))).trans (V_main_arg2 m c)⟩)
    (run_forget m ρ (fun _ => zf S8x20224))

end Cert.KernelIdeal.Hand

end
-- ==== Proof.Spec.lean ====
/-
  The linear layer as one function of its three arrays, over the extended reals:
  `out[b, c] = Σ_k x[b, k] · w[c, k] + bias[c]`, for b < 8, c < 100000, k < 128.
  No program is imported here: both the kernel and the reference are shown to compute this function.
-/
import Idealize.ShloMosaic.PureOps.Ideal
import Idealize.ShloMosaic.Lib.ValueIdx

noncomputable section

namespace Cert.LinearSpec

open Idealize.ShloMosaic Idealize.ShloMosaic.ValueIdx

/-- The shapes, literally (the programs' own shape names abbreviate these). -/
abbrev SX : Shape := ⟨2, ![8, 128]⟩
abbrev SW : Shape := ⟨2, ![100000, 128]⟩
abbrev SB : Shape := ⟨1, ![100000]⟩
abbrev SO : Shape := ⟨2, ![8, 100000]⟩

/-- Row `b` of the activations at feature `k`; row `c` of the weights at feature `k`; entry `c` of the bias. -/
abbrev xAt (b : Fin 8) (k : Fin 128) : SX.Idx := ix2 b k
abbrev wAt (c : Fin 100000) (k : Fin 128) : SW.Idx := ix2 c k
abbrev bAt (c : Fin 100000) : SB.Idx := ix1 c

/-- The result at row `b`, class `c`. -/
def lin (x : SX.Idx → EReal) (w : SW.Idx → EReal) (bias : SB.Idx → EReal) (b : Fin 8) (c : Fin 100000) : EReal :=
  (∑ k : Fin 128, x (xAt b k) * w (wAt c k)) + bias (bAt c)

/-- The whole result array. -/
def G (x : SX.Idx → EReal) (w : SW.Idx → EReal) (bias : SB.Idx → EReal) : SO.Idx → EReal :=
  fun i => lin x w bias ⟨(i 0).val, (i 0).isLt⟩ ⟨(i 1).val, (i 1).isLt⟩

theorem G_apply (x : SX.Idx → EReal) (w : SW.Idx → EReal) (bias : SB.Idx → EReal) (b : Fin 8) (c : Fin 100000) :
    G x w bias (ix2 b c) = lin x w bias b c := rfl

end Cert.LinearSpec

end
-- ==== Proof.KI.Target.lean ====
/-
  What the idealized kernel is shown to compute: the whole result array as the linear layer of the three argument
  arrays (`Gfull`), and, per grid point, what the result's staging buffer is said to hold after the body — that
  array's block at the point on the columns the write-back moves, zeros past the array's end (`o4E`).
-/
import proofs.«140681_g34102040330808_cont_9to1_1746_7_alg».proof.Proof.KI.Data
import proofs.«140681_g34102040330808_cont_9to1_1746_7_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The result array the kernel ends with on core `c`: the linear layer of the launch contents of the arguments. -/
def Gfull (c : Dev nD) : Buf (Elt Ideal) ((c : Thread nD τ).loc main_v0) :=
  Cert.LinearSpec.G (m ((c : Thread nD τ).loc main_arg0)) (m ((c : Thread nD τ).loc main_arg1)) (m ((c : Thread nD τ).loc main_arg2))

/-- The result's staging buffer after the body at point `t`, as the proof data name it. -/
def o4E (c : Dev nD) (t : Fin cfg0.N) : S8x20224.Idx → Elt Ideal .f32 :=
  (cfg0.win 4).fill (cfg0.grid.coords t) (zf S8x20224) (((cfg0.win 4).blk t).view.read (Elt Ideal) (Gfull m c))

/-- On the part the write-back moves it is the block of `Gfull`. -/
theorem cut_o4E (c : Dev nD) (t : Fin cfg0.N) :
    (cfg0.win 4).cut (cfg0.grid.coords t) (o4E m c t) = ((cfg0.win 4).blk t).view.read (Elt Ideal) (Gfull m c) :=
  (cfg0.win 4).cut_fill _ _ _

end Cert.KernelIdeal.Hand

end
-- ==== Proof.KI.Payload.lean ====
/-
  The two stored values of the kernel body read at an index, over the extended reals.

  Each store's value is a matrix product into a zero accumulator — the 8×128 activations against a 10112×128 weight
  block, contracted along the 128 features — plus half of the bias row, reshaped to itself and broadcast over the
  eight rows. At row `b`, column `r` that is `Σ_k x[b, k] · w[r, k] + bias[0, r]`.
-/
import proofs.«140681_g34102040330808_cont_9to1_1746_7_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## The matrix product's operand indices

The product's dimension numbers contract axis 1 of both operands (the 128 features) and keep axis 0 of both: the
result's row is the activations' row, the result's column is the weight block's row. -/

/-- Activations, axis 0 (rows, kept): the result's row. -/
private theorem lhs_mm_0 (i : S8x10112.Idx) (q : dot_S8x128_S10112x128_S8x10112_1_1_0_0_n_n.contr.Idx) :
    (dot_S8x128_S10112x128_S8x10112_1_1_0_0_n_n.lhsIdx i q 0).val = (i 0).val := by
  unfold DotDims.lhsIdx
  rw [dif_neg (show ¬(0 : Fin S8x128.rank) ∈ dot_S8x128_S10112x128_S8x10112_1_1_0_0_n_n.lhsBatch by decide), dif_pos (show (0 : Fin S8x128.rank) ∈ dot_S8x128_S10112x128_S8x10112_1_1_0_0_n_n.lhsNonContracting by decide)]
  rfl
/-- Activations, axis 1 (features, the one contracted axis): the contraction position. -/
private theorem lhs_mm_1 (i : S8x10112.Idx) (q : dot_S8x128_S10112x128_S8x10112_1_1_0_0_n_n.contr.Idx) :
    (dot_S8x128_S10112x128_S8x10112_1_1_0_0_n_n.lhsIdx i q 1).val = (q ⟨0, by decide⟩).val :=
  dot_S8x128_S10112x128_S8x10112_1_1_0_0_n_n.lhsIdx_val_of_single rfl i q
/-- Weight block, axis 0 (its rows, kept): the result's column. -/
private theorem rhs_mm_0 (i : S8x10112.Idx) (q : dot_S8x128_S10112x128_S8x10112_1_1_0_0_n_n.contr.Idx) :
    (dot_S8x128_S10112x128_S8x10112_1_1_0_0_n_n.rhsIdx i q 0).val = (i 1).val := by
  unfold DotDims.rhsIdx
  rw [dif_neg (show ¬(0 : Fin S10112x128.rank) ∈ dot_S8x128_S10112x128_S8x10112_1_1_0_0_n_n.rhsBatch by decide), dif_pos (show (0 : Fin S10112x128.rank) ∈ dot_S8x128_S10112x128_S8x10112_1_1_0_0_n_n.rhsNonContracting by decide)]
  rfl
/-- Weight block, axis 1 (features, the one contracted axis): the contraction position. -/
private theorem rhs_mm_1 (i : S8x10112.Idx) (q : dot_S8x128_S10112x128_S8x10112_1_1_0_0_n_n.contr.Idx) :
    (dot_S8x128_S10112x128_S8x10112_1_1_0_0_n_n.rhsIdx i q 1).val = (q ⟨0, by decide⟩).val :=
  dot_S8x128_S10112x128_S8x10112_1_1_0_0_n_n.rhsIdx_val_of_single rfl i q

/-- The matrix product into the zero accumulator at row `b`, column `r`: the sum over the 128 features of the
    activations' row `b` against the weight block's row `r`. -/
private theorem mm_apply (x : Vec Ideal S8x128 .f32) (w : Vec Ideal S10112x128 .f32) (b : Fin 8) (r : Fin 10112) :
    matmul (F := Ideal) (φ₁ := .f32) (φ₂ := .f32) dot_S8x128_S10112x128_S8x10112_1_1_0_0_n_n none x w (constant (F := Ideal) S8x10112 .f32 0x00000000#32) (ix2 b r)
      = ∑ k : Fin 128, x (ix2 b k) * w (ix2 r k) := by
  simp only [matmul]
  rw [Ideal.matmul_constant_zero_apply, ← Equiv.sum_comp (ValueIdx.contrEquiv1 dot_S8x128_S10112x128_S8x10112_1_1_0_0_n_n 128 rfl rfl).symm]
  refine Finset.sum_congr rfl fun k _ => ?_
  have hk := ValueIdx.contrEquiv1_symm_val dot_S8x128_S10112x128_S8x10112_1_1_0_0_n_n 128 rfl rfl k
  have el : dot_S8x128_S10112x128_S8x10112_1_1_0_0_n_n.lhsIdx (ix2 b r) ((ValueIdx.contrEquiv1 dot_S8x128_S10112x128_S8x10112_1_1_0_0_n_n 128 rfl rfl).symm k) = ix2 b k := funext fun a => Fin.ext (by
    match a with
    | ⟨0, _⟩ => exact lhs_mm_0 _ _
    | ⟨1, _⟩ => exact (lhs_mm_1 _ _).trans hk)
  have er : dot_S8x128_S10112x128_S8x10112_1_1_0_0_n_n.rhsIdx (ix2 b r) ((ValueIdx.contrEquiv1 dot_S8x128_S10112x128_S8x10112_1_1_0_0_n_n 128 rfl rfl).symm k) = ix2 r k := funext fun a => Fin.ext (by
    match a with
    | ⟨0, _⟩ => exact rhs_mm_0 _ _
    | ⟨1, _⟩ => exact (rhs_mm_1 _ _).trans hk)
  rw [el, er]

/-- The bias half, reshaped to its own shape and broadcast over the eight rows, at row `b`, column `r`: the row's
    entry at `r`. -/
private theorem bias_apply (v : Vec Ideal S1x10112 .f32) (b : Fin 8) (r : Fin 10112) :
    broadcastTo S8x10112 (shapeCast S1x10112 v shapeCasts_S1x10112_S1x10112) broadcasts_S1x10112_S8x10112 (ix2 b r)
      = v (ix2 (0 : Fin 1) r) := by
  rw [shapeCast_self]
  exact broadcastTo_1b_ab_apply v broadcasts_S1x10112_S8x10112 b r

/-- The first store's value at row `b`, column `r` of its 8×10112 half. -/
theorem pay1_apply (v0 : Vec Ideal S8x128 .f32) (v1 : Vec Ideal S10112x128 .f32) (v3 : Vec Ideal S1x10112 .f32)
    (b : Fin 8) (r : Fin 10112) :
    k0_pay1 (F := Ideal) v0 v1 v3 (ix2 b r)
      = (∑ k : Fin 128, v0 (ix2 b k) * v1 (ix2 r k)) + v3 (ix2 (0 : Fin 1) r) := by
  unfold k0_pay1
  show matmul (F := Ideal) (φ₁ := .f32) (φ₂ := .f32) dot_S8x128_S10112x128_S8x10112_1_1_0_0_n_n none v0 v1 (constant (F := Ideal) S8x10112 .f32 0x00000000#32) (ix2 b r)
      + broadcastTo S8x10112 (shapeCast S1x10112 v3 shapeCasts_S1x10112_S1x10112) broadcasts_S1x10112_S8x10112 (ix2 b r) = _
  rw [mm_apply, bias_apply]

/-- The second store's value likewise. -/
theorem pay2_apply (v8 : Vec Ideal S8x128 .f32) (v9 : Vec Ideal S10112x128 .f32) (v11 : Vec Ideal S1x10112 .f32)
    (b : Fin 8) (r : Fin 10112) :
    k0_pay2 (F := Ideal) v8 v9 v11 (ix2 b r)
      = (∑ k : Fin 128, v8 (ix2 b k) * v9 (ix2 r k)) + v11 (ix2 (0 : Fin 1) r) := by
  unfold k0_pay2
  show matmul (F := Ideal) (φ₁ := .f32) (φ₂ := .f32) dot_S8x128_S10112x128_S8x10112_1_1_0_0_n_n none v8 v9 (constant (F := Ideal) S8x10112 .f32 0x00000000#32) (ix2 b r)
      + broadcastTo S8x10112 (shapeCast S1x10112 v11 shapeCasts_S1x10112_S1x10112) broadcasts_S1x10112_S8x10112 (ix2 b r) = _
  rw [mm_apply, bias_apply]

end Cert.KernelIdeal.Hand

end
-- ==== Proof.KI.Point.lean ====
/-
  The value the body leaves at one grid point, over the extended reals.

  At point `t` the result block's column `r` is class `20224·t + r`. For `r < 10112` it comes from the first store:
  the product of the activations with row `r` of weight block `2t` — class `10112·(2t) + r`, the same class — plus
  entry `r` of the bias block; for `r ≥ 10112` from the second store, weight block `2t+1` at row `r − 10112`. A column
  the write-back moves is a class below 100000, so the weight row and the bias entry it reads are inside their arrays,
  where the cut fetches put the arrays' own words: the value does not depend on the unnamed staging words.
-/
import proofs.«140681_g34102040330808_cont_9to1_1746_7_alg».proof.Proof.KI.Target
import proofs.«140681_g34102040330808_cont_9to1_1746_7_alg».proof.Proof.KI.Payload
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ)

/-- The printed index maps at every point `t` of the grid: the activations' block index is (0, 0); the two weight
    windows' are (2t, 0) and (2t+1, 0); the bias row's and the result's are (0, t). -/
private theorem idx_facts : ∀ t : Fin cfg0.N,
    win0_0.index t (0 : Fin 2) = 0 ∧ win0_0.index t (1 : Fin 2) = 0
    ∧ win0_1.index t (0 : Fin 2) = 2 * t.val ∧ win0_1.index t (1 : Fin 2) = 0
    ∧ win0_2.index t (0 : Fin 2) = 2 * t.val + 1 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- A fill read at a block index whose every coordinate the transfer moves is the filling block there. -/
private theorem fill_of_lt {G : Pipeline.Grid} (w : Window sig G) {α : Type} (i : G.Coords) (d : w.block.Idx → α)
    (g : (w.xblock i).Idx → α) (j : w.block.Idx) (h : ∀ a, (j a).val < w.xsize i a) :
    w.fill i d g j = g (fun a => ⟨(j a).val, h a⟩) :=
  w.fill_xinj i d g (fun a => ⟨(j a).val, h a⟩)

/-- A coordinate of a block that lands inside the array is among those the cut transfer moves. -/
private theorem lt_extent_of {ix k d j : Nat} (hj : j < k) (h : ix * k + j < d) : j < (Pipeline.Clip.of ix k d).extent k := by
  unfold Pipeline.Clip.of; split
  · exact hj
  · show j < d - ix * k; omega

/-- The bias row as the region finds it: the launched bias, reshaped. -/
private theorem V_bias (c : Dev nD) :
    (V m c main_call0_v0 : S1x100000.Idx → EReal)
      = shapeCast S1x100000 (m ((c : Thread nD τ).loc main_arg2)) shapeCasts_S100000_S1x100000 := by
  dsimp only [V, hostOps0]
  after_results
  rfl

/-- Entry `n` of the row is entry `n` of the bias: the two have the same row-major position. -/
private theorem V_bias_apply (c : Dev nD) (n : Fin 100000) :
    (V m c main_call0_v0 : S1x100000.Idx → EReal) (ix2 (0 : Fin 1) n) = m ((c : Thread nD τ).loc main_arg2) (ix1 n) := by
  rw [V_bias]
  refine shapeCast_apply _ _ _ _ ?_
  show ((⟨1, ![100000]⟩ : Shape).rowMajor (ix1 n)).val = ((⟨2, ![1, 100000]⟩ : Shape).rowMajor (ix2 (0 : Fin 1) n)).val
  rw [Shape.rowMajor_val_one, Shape.rowMajor_val_two]
  show n.val = 0 * 100000 + n.val
  omega

/-- The zero offsets, as a constant function. -/
private theorem hz : (![0, 0] : Fin 2 → Nat) = fun _ => 0 := funext fun a => by fin_cases a <;> rfl

/-- The buffer after the body at a column of its first half. -/
private theorem out4_lo (x0 : Vec Ideal S8x128 .f32) (x1 x2 : Vec Ideal S10112x128 .f32) (x3 : Vec Ideal S1x20224 .f32)
    (b : Fin 8) (r : Fin 10112) (hr : r.val < 20224) :
    out4 x0 x1 x2 x3 (ix2 b ⟨r.val, hr⟩)
      = (∑ k : Fin 128, x0 (ix2 b k) * x1 (ix2 r k)) + x3 (ix2 (0 : Fin 1) ⟨r.val, hr⟩) := by
  have hX : View.ld x0 rX = x0 := View.ld_unit_zero hz _ _
  have hW : View.ld x1 rW = x1 := View.ld_unit_zero hz _ _
  unfold out4
  rw [View.canon_cons_of_not_mem]
  · have e : (ix2 b ⟨r.val, hr⟩ : S8x20224.Idx) = rO0.emb (ix2 b r) := by
      funext a; apply Fin.ext
      match a with
      | ⟨0, _⟩ => show b.val = 0 + 1 * b.val; omega
      | ⟨1, _⟩ => show r.val = 0 + 1 * r.val; omega
    rw [e, View.canon_cons_emb, hX, hW, pay1_apply]
    congr 1
    show x3 (rB0.idx (ix2 (0 : Fin 1) r)) = _
    congr 1
    funext a; apply Fin.ext
    match a with
    | ⟨0, _⟩ => rfl
    | ⟨1, _⟩ => show 0 + 1 * r.val = r.val; omega
  · show ix2 b ⟨r.val, hr⟩ ∉ rO1.set
    rw [Rect.mem_set_unit]
    intro h
    have h1 : 10112 ≤ r.val := (h 1).1
    have := r.isLt
    omega

/-- The buffer after the body at a column of its second half. -/
private theorem out4_hi (x0 : Vec Ideal S8x128 .f32) (x1 x2 : Vec Ideal S10112x128 .f32) (x3 : Vec Ideal S1x20224 .f32)
    (b : Fin 8) (r : Fin 10112) (hr : 10112 + r.val < 20224) :
    out4 x0 x1 x2 x3 (ix2 b ⟨10112 + r.val, hr⟩)
      = (∑ k : Fin 128, x0 (ix2 b k) * x2 (ix2 r k)) + x3 (ix2 (0 : Fin 1) ⟨10112 + r.val, hr⟩) := by
  have hX : View.ld x0 rX = x0 := View.ld_unit_zero hz _ _
  have hW : View.ld x2 rW = x2 := View.ld_unit_zero hz _ _
  unfold out4
  have e : (ix2 b ⟨10112 + r.val, hr⟩ : S8x20224.Idx) = rO1.emb (ix2 b r) := by
    funext a; apply Fin.ext
    match a with
    | ⟨0, _⟩ => show b.val = 0 + 1 * b.val; omega
    | ⟨1, _⟩ => show 10112 + r.val = 10112 + 1 * r.val; omega
  rw [e, View.canon_cons_emb, hX, hW, pay2_apply]
  congr 1
  show x3 (rB1.idx (ix2 (0 : Fin 1) r)) = _
  congr 1
  funext a; apply Fin.ext
  match a with
  | ⟨0, _⟩ => rfl
  | ⟨1, _⟩ => show 10112 + 1 * r.val = 10112 + r.val; omega

/-- The activations' block is the activations. -/
private theorem w0_at (c : Dev nD) (t : Fin cfg0.N) (b : Fin 8) (k : Fin 128) :
    iblk m c 0 t (ix2 b k) = m ((c : Thread nD τ).loc main_arg0) (ix2 b k) := by
  obtain ⟨e00, e01, -⟩ := idx_facts t
  show V m c main_arg0 (((cfg0.win 0).blk t).view.emb _) = _
  rw [V_main_arg0]
  congr 1
  funext a; apply Fin.ext
  match a with
  | ⟨0, _⟩ => show win0_0.index t (0 : Fin 2) * 8 + 1 * b.val = b.val; rw [e00]; omega
  | ⟨1, _⟩ => show win0_0.index t (1 : Fin 2) * 128 + 1 * k.val = k.val; rw [e01]; omega

/-- Row `r` of the first weight window's buffer at point `t`, when weight row `n = 10112·(2t) + r` is inside the
    array: that row of the weights. -/
private theorem w1_at (c : Dev nD) (t : Fin cfg0.N) (d1 : S10112x128.Idx → Elt Ideal .f32) (r : Fin 10112) (k : Fin 128)
    (n : Fin 100000) (hn : n.val = 10112 * (2 * t.val) + r.val) :
    (cfg0.win 1).fill (cfg0.grid.coords t) d1 (iblk m c 1 t) (ix2 r k)
      = m ((c : Thread nD τ).loc main_arg1) (ix2 n k) := by
  obtain ⟨-, -, e10, e11, -⟩ := idx_facts t
  have hn' := n.isLt
  have hm : ∀ a, ((ix2 r k : S10112x128.Idx) a).val < (cfg0.win 1).xsize (cfg0.grid.coords t) a := by
    intro a
    match a with
    | ⟨0, _⟩ =>
      show r.val < (Pipeline.Clip.of (win0_1.index t 0) 10112 100000).extent 10112
      exact lt_extent_of r.isLt (by rw [e10]; omega)
    | ⟨1, _⟩ =>
      show k.val < (Pipeline.Clip.of (win0_1.index t 1) 128 128).extent 128
      exact lt_extent_of k.isLt (by rw [e11]; omega)
  rw [fill_of_lt (cfg0.win 1) _ _ _ _ hm]
  show V m c main_arg1 (((cfg0.win 1).blk t).view.emb _) = _
  rw [V_main_arg1]
  congr 1
  funext a; apply Fin.ext
  match a with
  | ⟨0, _⟩ =>
    show win0_1.index t (0 : Fin 2) * 10112 + 1 * r.val = n.val
    rw [e10]; omega
  | ⟨1, _⟩ =>
    show win0_1.index t (1 : Fin 2) * 128 + 1 * k.val = k.val
    rw [e11]; omega

/-- Row `r` of the second weight window's buffer at point `t`, when weight row `n = 10112·(2t+1) + r` is inside the
    array: that row of the weights. -/
private theorem w2_at (c : Dev nD) (t : Fin cfg0.N) (d2 : S10112x128.Idx → Elt Ideal .f32) (r : Fin 10112) (k : Fin 128)
    (n : Fin 100000) (hn : n.val = 10112 * (2 * t.val + 1) + r.val) :
    (cfg0.win 2).fill (cfg0.grid.coords t) d2 (iblk m c 2 t) (ix2 r k)
      = m ((c : Thread nD τ).loc main_arg1) (ix2 n k) := by
  obtain ⟨-, -, -, -, e20, e21, -⟩ := idx_facts t
  have hn' := n.isLt
  have hm : ∀ a, ((ix2 r k : S10112x128.Idx) a).val < (cfg0.win 2).xsize (cfg0.grid.coords t) a := by
    intro a
    match a with
    | ⟨0, _⟩ =>
      show r.val < (Pipeline.Clip.of (win0_2.index t 0) 10112 100000).extent 10112
      exact lt_extent_of r.isLt (by rw [e20]; omega)
    | ⟨1, _⟩ =>
      show k.val < (Pipeline.Clip.of (win0_2.index t 1) 128 128).extent 128
      exact lt_extent_of k.isLt (by rw [e21]; omega)
  rw [fill_of_lt (cfg0.win 2) _ _ _ _ hm]
  show V m c main_arg1 (((cfg0.win 2).blk t).view.emb _) = _
  rw [V_main_arg1]
  congr 1
  funext a; apply Fin.ext
  match a with
  | ⟨0, _⟩ =>
    show win0_2.index t (0 : Fin 2) * 10112 + 1 * r.val = n.val
    rw [e20]; omega
  | ⟨1, _⟩ =>
    show win0_2.index t (1 : Fin 2) * 128 + 1 * k.val = k.val
    rw [e21]; omega

/-- Column `q` of the bias window's buffer at point `t`, when bias entry `n = 20224·t + q` is inside the array: that
    entry of the bias. -/
private theorem w3_at (c : Dev nD) (t : Fin cfg0.N) (d3 : S1x20224.Idx → Elt Ideal .f32) (q : Fin 20224)
    (n : Fin 100000) (hn : n.val = 20224 * t.val + q.val) :
    (cfg0.win 3).fill (cfg0.grid.coords t) d3 (iblk m c 3 t) (ix2 (0 : Fin 1) q)
      = m ((c : Thread nD τ).loc main_arg2) (ix1 n) := by
  obtain ⟨-, -, -, -, -, -, e30, e31, -⟩ := idx_facts t
  have hn' := n.isLt
  have hm : ∀ a, ((ix2 (0 : Fin 1) q : S1x20224.Idx) a).val < (cfg0.win 3).xsize (cfg0.grid.coords t) a := by
    intro a
    match a with
    | ⟨0, _⟩ =>
      show (0 : Nat) < (Pipeline.Clip.of (win0_3.index t 0) 1 1).extent 1
      exact lt_extent_of Nat.one_pos (by rw [e30]; omega)
    | ⟨1, _⟩ =>
      show q.val < (Pipeline.Clip.of (win0_3.index t 1) 20224 100000).extent 20224
      exact lt_extent_of q.isLt (by rw [e31]; omega)
  rw [fill_of_lt (cfg0.win 3) _ _ _ _ hm]
  show V m c main_call0_v0 (((cfg0.win 3).blk t).view.emb _) = _
  rw [← V_bias_apply m c n]
  congr 1
  funext a; apply Fin.ext
  match a with
  | ⟨0, _⟩ =>
    show win0_3.index t (0 : Fin 2) * 1 + 1 * 0 = 0
    rw [e30]
  | ⟨1, _⟩ =>
    show win0_3.index t (1 : Fin 2) * 20224 + 1 * q.val = n.val
    rw [e31]; omega

/-- The buffer after the body at row `b`, column `q` of point `t`, when class `n = 20224·t + q` is below 100000: the
    linear layer's value at row `b`, class `n`, whatever the words past the arrays' ends. -/
private theorem elem_value (c : Dev nD) (t : Fin cfg0.N) (d1 d2 : S10112x128.Idx → Elt Ideal .f32) (d3 : S1x20224.Idx → Elt Ideal .f32)
    (b : Fin 8) (q : Fin 20224) (n : Fin 100000) (hn : n.val = 20224 * t.val + q.val) :
    out4 (iblk m c 0 t) ((cfg0.win 1).fill (cfg0.grid.coords t) d1 (iblk m c 1 t))
        ((cfg0.win 2).fill (cfg0.grid.coords t) d2 (iblk m c 2 t)) ((cfg0.win 3).fill (cfg0.grid.coords t) d3 (iblk m c 3 t)) (ix2 b q)
      = Cert.LinearSpec.lin (m ((c : Thread nD τ).loc main_arg0)) (m ((c : Thread nD τ).loc main_arg1))
          (m ((c : Thread nD τ).loc main_arg2)) b n := by
  unfold Cert.LinearSpec.lin
  by_cases hlo : q.val < 10112
  · show out4 _ _ _ _ (ix2 b ⟨(⟨q.val, hlo⟩ : Fin 10112).val, q.isLt⟩) = _
    rw [out4_lo, w3_at m c t d3 _ n hn]
    congr 1
    refine Finset.sum_congr rfl fun k _ => ?_
    rw [w0_at, w1_at m c t d1 ⟨q.val, hlo⟩ k n (by show n.val = 10112 * (2 * t.val) + q.val; omega)]
  · obtain ⟨r, hr⟩ : ∃ r : Fin 10112, q.val = 10112 + r.val :=
      ⟨⟨q.val - 10112, by have := q.isLt; omega⟩, by show q.val = 10112 + (q.val - 10112); omega⟩
    obtain ⟨qv, hqv⟩ := q
    have hr' : qv = 10112 + r.val := hr
    subst hr'
    rw [out4_hi, w3_at m c t d3 _ n hn]
    congr 1
    refine Finset.sum_congr rfl fun k _ => ?_
    rw [w0_at, w2_at m c t d2 r k n (by show n.val = 10112 * (2 * t.val + 1) + r.val; have : n.val = 20224 * t.val + (10112 + r.val) := hn; omega)]

/-- On the columns the write-back moves, the two stores' values at point `t` are the block of `Gfull`, whatever the
    staging words `d1 d2 d3` past the arrays' ends. -/
theorem point_value (c : Dev nD) (t : Fin cfg0.N) (d1 d2 : S10112x128.Idx → Elt Ideal .f32) (d3 : S1x20224.Idx → Elt Ideal .f32) :
    (cfg0.win 4).cut (cfg0.grid.coords t)
        (out4 (iblk m c 0 t) ((cfg0.win 1).fill (cfg0.grid.coords t) d1 (iblk m c 1 t))
          ((cfg0.win 2).fill (cfg0.grid.coords t) d2 (iblk m c 2 t)) ((cfg0.win 3).fill (cfg0.grid.coords t) d3 (iblk m c 3 t)))
      = ((cfg0.win 4).blk t).view.read (Elt Ideal) (Gfull m c) := by
  obtain ⟨-, -, -, -, -, -, -, -, e40, e41⟩ := idx_facts t
  funext j
  have hb : (j 0).val < 8 := lt_of_lt_of_le (j 0).isLt ((cfg0.win 4).xsize_le (cfg0.grid.coords t) 0)
  have hq : (j 1).val < 20224 := lt_of_lt_of_le (j 1).isLt ((cfg0.win 4).xsize_le (cfg0.grid.coords t) 1)
  have h1 : (j 1).val < (cfg0.win 4).xsize (cfg0.grid.coords t) 1 := (j 1).isLt
  have hin : win0_4.index t (1 : Fin 2) * 20224 + (cfg0.win 4).xsize (cfg0.grid.coords t) 1 ≤ 100000 :=
    Pipeline.Clip.inb ((cfg0.win 4).hclip (cfg0.grid.coords t) 1)
  have hlt : 20224 * t.val + (j 1).val < 100000 := by rw [e41] at hin; omega
  have ej : (cfg0.win 4).xinj (cfg0.grid.coords t) j = (ix2 ⟨(j 0).val, hb⟩ ⟨(j 1).val, hq⟩ : S8x20224.Idx) := by
    funext a
    match a with
    | ⟨0, _⟩ => rfl
    | ⟨1, _⟩ => rfl
  have eG : ((cfg0.win 4).blk t).view.emb j
      = (ix2 ⟨(j 0).val, hb⟩ ⟨20224 * t.val + (j 1).val, hlt⟩ : S8x100000.Idx) := by
    funext a; apply Fin.ext
    match a with
    | ⟨0, _⟩ => show win0_4.index t (0 : Fin 2) * 8 + 1 * (j 0).val = (j 0).val; rw [e40]; omega
    | ⟨1, _⟩ => show win0_4.index t (1 : Fin 2) * 20224 + 1 * (j 1).val = 20224 * t.val + (j 1).val; rw [e41]; omega
  show out4 _ _ _ _ ((cfg0.win 4).xinj (cfg0.grid.coords t) j) = Gfull m c (((cfg0.win 4).blk t).view.emb j)
  rw [ej, eG]
  show _ = Cert.LinearSpec.G _ _ _ (ix2 (⟨(j 0).val, hb⟩ : Fin 8) (⟨20224 * t.val + (j 1).val, hlt⟩ : Fin 100000))
  rw [Cert.LinearSpec.G_apply]
  exact elem_value m c t d1 d2 d3 ⟨(j 0).val, hb⟩ ⟨(j 1).val, hq⟩ ⟨20224 * t.val + (j 1).val, hlt⟩ rfl

end Cert.KernelIdeal.Hand

end
-- ==== Proof.KI.Final.lean ====
/-
  From blocks to the array: the five result blocks — columns 20224·t ‥ 20224·t + 20223, the last cut at column
  100000 — cover the result array, so an array whose every written-back block is the block of `Gfull` is `Gfull`.
-/
import proofs.«140681_g34102040330808_cont_9to1_1746_7_alg».proof.Proof.KI.Target
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- An index of the result array lies in point `t`'s block iff, on each axis, its coordinate is at or past the
    block's first coordinate (block index times block size) and before that plus the cut size. -/
private theorem mem_blk4 (t : Fin cfg0.N) (i : S8x100000.Idx) :
    i ∈ ((cfg0.win 4).blk t).view.set ↔
      ∀ a : Fin 2, win0_4.index t a * S8x20224.size a ≤ (i a).val
        ∧ (i a).val < win0_4.index t a * S8x20224.size a + win0_4.xsize (grid0.coords t) a := by
  show i ∈ ((View.whole main_v0).slice (win0_4.rect t)).set ↔ _
  rw [View.set_slice_whole, Rect.mem_set_unit]
  exact Iff.rfl

/-- The same with the two axes spelled: rows, then columns. -/
private theorem mem_blk4' (t : Fin cfg0.N) (i : S8x100000.Idx) :
    i ∈ ((cfg0.win 4).blk t).view.set ↔
      (win0_4.index t 0 * 8 ≤ (i 0).val ∧ (i 0).val < win0_4.index t 0 * 8 + win0_4.xsize (grid0.coords t) 0)
      ∧ (win0_4.index t 1 * 20224 ≤ (i 1).val ∧ (i 1).val < win0_4.index t 1 * 20224 + win0_4.xsize (grid0.coords t) 1) := by
  rw [mem_blk4]
  exact Fin.forall_fin_two

/-- Every index of the result array lies in the block of some point, and every point writes its block back. -/
theorem cover_result (c : Dev nD) (i : ((cfg0.win 4).arr.view.loc (c.tc : Thread nD τ)).2.ty.Idx) :
    ∃ t : Fin cfg0.N, (cfg0.win 4).flush t = true ∧ i ∈ ((cfg0.win 4).blk t).view.set := by
  -- the row is below 8 and the column below 100000
  have h0 : (i 0).val < 8 := (i 0).isLt
  have h1 : (i 1).val < 100000 := (i 1).isLt
  -- the point is the column's quotient by 20224
  by_cases c0 : (i 1).val < 20224
  · refine ⟨t0_0, flush0_4 _, ?_⟩
    rw [mem_blk4' t0_0 i,
      show win0_4.index t0_0 0 * 8 = 0 from by decide +kernel,
      show win0_4.xsize (grid0.coords t0_0) 0 = 8 from by decide +kernel,
      show win0_4.index t0_0 1 * 20224 = 0 from by decide +kernel,
      show win0_4.xsize (grid0.coords t0_0) 1 = 20224 from by decide +kernel]
    omega
  by_cases c1 : (i 1).val < 40448
  · refine ⟨t0_1, flush0_4 _, ?_⟩
    rw [mem_blk4' t0_1 i,
      show win0_4.index t0_1 0 * 8 = 0 from by decide +kernel,
      show win0_4.xsize (grid0.coords t0_1) 0 = 8 from by decide +kernel,
      show win0_4.index t0_1 1 * 20224 = 20224 from by decide +kernel,
      show win0_4.xsize (grid0.coords t0_1) 1 = 20224 from by decide +kernel]
    omega
  by_cases c2 : (i 1).val < 60672
  · refine ⟨t0_2, flush0_4 _, ?_⟩
    rw [mem_blk4' t0_2 i,
      show win0_4.index t0_2 0 * 8 = 0 from by decide +kernel,
      show win0_4.xsize (grid0.coords t0_2) 0 = 8 from by decide +kernel,
      show win0_4.index t0_2 1 * 20224 = 40448 from by decide +kernel,
      show win0_4.xsize (grid0.coords t0_2) 1 = 20224 from by decide +kernel]
    omega
  by_cases c3 : (i 1).val < 80896
  · refine ⟨t0_3, flush0_4 _, ?_⟩
    rw [mem_blk4' t0_3 i,
      show win0_4.index t0_3 0 * 8 = 0 from by decide +kernel,
      show win0_4.xsize (grid0.coords t0_3) 0 = 8 from by decide +kernel,
      show win0_4.index t0_3 1 * 20224 = 60672 from by decide +kernel,
      show win0_4.xsize (grid0.coords t0_3) 1 = 20224 from by decide +kernel]
    omega
  · refine ⟨t0_4, flush0_4 _, ?_⟩
    rw [mem_blk4' t0_4 i,
      show win0_4.index t0_4 0 * 8 = 0 from by decide +kernel,
      show win0_4.xsize (grid0.coords t0_4) 0 = 8 from by decide +kernel,
      show win0_4.index t0_4 1 * 20224 = 80896 from by decide +kernel,
      show win0_4.xsize (grid0.coords t0_4) 1 = 19104 from by decide +kernel]
    omega

/-- The result array after the last write-back. -/
theorem final_result (c : Dev nD) : (dat m (o4E m c) c).arrAt 4 cfg0.N = Gfull m c :=
  (dat m (o4E m c) c).arrAt_eq_of_cover 4 (Gfull m c)
    (fun t _ => by
      show (cfg0.win 4).cut (cfg0.grid.coords t) ((dat m (o4E m c) c).after 4 t) = _
      rw [after_4]
      exact cut_o4E m c t)
    (cover_result c)

end Cert.KernelIdeal.Hand

end
-- ==== Proof.KI.Exact.lean ====
/-
  The run of the idealized kernel with its result named: over the extended reals every weakly fair execution
  terminates, the result array ends holding the linear layer of the launch contents of the three arguments, and the
  arguments end as they were launched.

  The proof data name what the body leaves in the result's staging buffer on the columns the write-back moves (the
  block of the linear layer there), the value at a point being independent of the staging words past the arrays' ends;
  the five written-back blocks cover the result array.
-/
import proofs.«140681_g34102040330808_cont_9to1_1746_7_alg».proof.Proof.KI.Split
import proofs.«140681_g34102040330808_cont_9to1_1746_7_alg».proof.Proof.KI.Point
import proofs.«140681_g34102040330808_cont_9to1_1746_7_alg».proof.Proof.KI.Final
import proofs.«140681_g34102040330808_cont_9to1_1746_7_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The body obligation of the exact data: at every point the two stores' values, on the moved columns, are the
    block of the linear layer. -/
theorem obligation_value (c : Dev nD) :
    BodyObligationLoose (dat m (o4E m c) c) (defs₀ (F := Ideal)) Variants.none () Set.univ :=
  obligation_exact m (o4E m c) c fun t d1 d2 d3 => (point_value m c t d1 d2 d3).trans (cut_o4E m c t).symm

/-- The run with exact data read relationally. -/
theorem run_rel :
    θ_run defs (onTc (τ := τ) (main (F := Ideal))) (s₀ m ρ)
      (Pipeline.RDat.FramePost cfg0 (fun c => (dat m (o4E m c) c).toR) (V m)) :=
  Pipeline.RDat.θ_run_frame_shared cfgs (0 : Fin 1) defs₀ Variants.none cellOf_inj winFacts₀0 block_pos0 arr_whole0 stage_whole0
    (fun c => (dat m (o4E m c) c).toR) m ρ main (fun c => (obligation_value m c).toR) (fun _ _ => rfl) (V m)
    (hmain m Variants.none) (fun c => hsplit m (o4E m c) c) (fun _ _ => rfl)

/-- The value run: the result array at the linear layer, the arguments unchanged. -/
theorem run_value : θ_run defs (onTc (τ := τ) (main (F := Ideal))) ⟨m, fun _ => 0, ρ⟩ (fun r => ∀ c : Dev nD,
      r.2.mem ((c.tc : Thread nD τ).loc main_v0) = Gfull m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(((dat m (o4E m c) c).toR_arrAt_iff (4 : Fin 5) _ _).mp ((h c).1 (4 : Fin 5))).trans (final_result m c),
       (Pipeline.RDat.FramePost.arr_in h c (0 : Fin 5) rfl).trans ((A_eq m (o4E m c) c 0).trans (V_main_arg0 m c)),
       (Pipeline.RDat.FramePost.arr_in h c (1 : Fin 5) rfl).trans ((A_eq m (o4E m c) c 1).trans (V_main_arg1 m c)),
       ((h c).2 main_arg2 (Pipeline.mem_restRefs_of main_arg2 (by decide) (by decide))).trans (V_main_arg2 m c)⟩)
    (run_rel m ρ)

end Cert.KernelIdeal.Hand

end
-- ==== Proof.RefValue.lean ====
/-
  The reference computes the linear layer: its transpose of the weights, its matrix product of the activations with
  the transposed weights (contracting the 128 features), its two broadcasts of the bias and its sum are, index by
  index over the extended reals, `Σ_k x[b, k] · w[c, k] + bias[c]`.
-/
import proofs.«140681_g34102040330808_cont_9to1_1746_7_alg».proof.Proof.Gen.ReferenceIdeal.Read
import proofs.«140681_g34102040330808_cont_9to1_1746_7_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The reference's result, as a function of its three arguments, is the linear layer. -/
theorem ref_eq (x0 : (⟨S8x128, .f32⟩ : BufTy).Contents (Elt Ideal)) (x1 : (⟨S100000x128, .f32⟩ : BufTy).Contents (Elt Ideal))
    (x2 : (⟨S100000, .f32⟩ : BufTy).Contents (Elt Ideal)) :
    val_main_v4 (F := Ideal) x0 x1 x2 = Cert.LinearSpec.G x0 x1 x2 := by
  funext i
  -- the left operand of the product at (row, feature k) is the activations' entry x[row, k]
  have hx : ∀ k : Fin 128, lidx_main_v1 i k = Cert.LinearSpec.xAt ⟨(i 0).val, (i 0).isLt⟩ k := fun k =>
    funext fun a => Fin.ext (by match a with | ⟨0, _⟩ => rfl | ⟨1, _⟩ => rfl)
  -- the transposed weights at (feature k, class) are the weights' entry w[class, k]
  have hw : ∀ k : Fin 128, idx_main_v0 (ridx_main_v1 i k) = Cert.LinearSpec.wAt ⟨(i 1).val, (i 1).isLt⟩ k := fun k =>
    funext fun a => Fin.ext (by match a with | ⟨0, _⟩ => rfl | ⟨1, _⟩ => rfl)
  -- the twice-broadcast bias at (row, class) is the bias' entry bias[class]
  have hb : idx_main_v2 (idx_main_v3 i) = Cert.LinearSpec.bAt ⟨(i 1).val, (i 1).isLt⟩ :=
    funext fun a => Fin.ext (by match a with | ⟨0, _⟩ => rfl)
  rw [val_main_v4_apply, val_main_v1_apply, val_main_v3_apply, val_main_v2_apply, hb]
  simp only [val_main_v0_apply, hx, hw]
  rfl

end Cert.ReferenceIdeal.RefValue

end
-- ==== Proof.lean ====
/-
  The certificate of a linear layer `out = x · weightᵀ + bias` (x 8×128, weight 100000×128, bias 100000) computed by a
  pipelined kernel against the plain `dot`-and-add reference.

  The kernel walks the 100000 classes in five steps of 20224 columns. At each step it reads TWO blocks of 10112 weight
  rows through two windows on the one weight array, multiplies the activations with each (contracting the 128
  features), adds the matching half of the bias row and stores the two 8×10112 halves of the result block. The last
  step's blocks overhang the arrays: what the cut transfers do not fill is unnamed, and the columns computed from it are
  past the result's end and are never written back.

  Over the extended reals both programs compute `Σ_k x[b,k]·w[c,k] + bias[c]` with the same summands in the same order, so
  no law beyond reading both sides at an index is needed and the precondition is never opened. The frames of the two
  kernel programs forget the result (at the word level a matrix product is an opaque function of its whole operands,
  unnamed words included); the reference's frame and value are its generated run.
-/
import proofs.«140681_g34102040330808_cont_9to1_1746_7_alg».proof.Defs
import proofs.«140681_g34102040330808_cont_9to1_1746_7_alg».proof.Proof.Gen.Kernel
import proofs.«140681_g34102040330808_cont_9to1_1746_7_alg».proof.Proof.Gen.KernelIdeal
import proofs.«140681_g34102040330808_cont_9to1_1746_7_alg».proof.Proof.Gen.ReferenceIdeal
import proofs.«140681_g34102040330808_cont_9to1_1746_7_alg».proof.Proof.Gen.Pre_finite_inputs
import proofs.«140681_g34102040330808_cont_9to1_1746_7_alg».proof.Proof.Gen.ReferenceIdeal.Run
import proofs.«140681_g34102040330808_cont_9to1_1746_7_alg».proof.Proof.Gen.ReferenceIdeal.Read
import proofs.«140681_g34102040330808_cont_9to1_1746_7_alg».proof.Proof.K.Frame
import proofs.«140681_g34102040330808_cont_9to1_1746_7_alg».proof.Proof.KI.Frame
import proofs.«140681_g34102040330808_cont_9to1_1746_7_alg».proof.Proof.KI.Exact
import proofs.«140681_g34102040330808_cont_9to1_1746_7_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's are the linear layer of arguments that
    agree. -/
theorem algebraic : Cert.algebraic_KernelIdeal_ReferenceIdeal := by
  intro m ρ m' ρ' _ hagree
  refine ⟨fun c => Cert.KernelIdeal.Hand.Gfull m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.ref_eq, (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
